-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x1024 : Shape := ⟨2, ![512, 1024]⟩
abbrev S4096x64 : Shape := ⟨2, ![4096, 64]⟩
abbrev S4096 : Shape := ⟨1, ![4096]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg1 : IVec S4096x64 32) (main_v13 : IVec S_ 1) (main_v15 : IVec S4096x64 1) (main_c_5 : IVec S_ 32) : IVec S_ 1 :=
  let main_v16 : IVec S4096x64 32 := broadcastInDim S4096x64 ![] bcast_S_S4096x64 main_c_5
  let main_v17 : IVec S4096x64 1 := cmpi .slt main_arg1 main_v16
  let main_v18 : IVec S4096x64 1 := andi main_v15 main_v17
  let main_c_6 : IVec S_ 1 := constantI S_ 1 1#1
  let main_v19 : IVec S_ 1 := (fun x v => Host.reduce IntOp.andi x v reducesTo_S4096x64_S_d0_1 h_S_) main_v18 main_c_6
  let main_v20 : IVec S_ 1 := andi main_v13 main_v19
  main_v20

def fn {F : FTy → Type} [FloatOps F] (main_arg0 : FVec F S512x1024 .f32) (main_arg1 : IVec S4096x64 32) (main_arg2 : FVec F S4096x64 .f32) (main_arg3 : FVec F S4096 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S4096x64 .f32 := Host.absf main_arg2
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_c_4 : IVec S_ 32 := constantI S_ 32 0#32
  let main_v14 : IVec S4096x64 32 := broadcastInDim S4096x64 ![] bcast_S_S4096x64 main_c_4
  let main_v15 : IVec S4096x64 1 := cmpi .sge main_arg1 main_v14
  let main_c_5 : IVec S_ 32 := constantI S_ 32 1024#32
  fn_part1 (F := F) main_arg1 main_v13 main_v15 main_c_5
-- ==== Kernel.lean ====
abbrev S512x1024 : Shape := ⟨2, ![512, 1024]⟩
abbrev S4096x64 : Shape := ⟨2, ![4096, 64]⟩
abbrev S4096 : Shape := ⟨1, ![4096]⟩
abbrev S_ : Shape := ⟨0, ![]⟩
abbrev S4096x1 : Shape := ⟨2, ![4096, 1]⟩
abbrev S1024x4096 : Shape := ⟨2, ![1024, 4096]⟩
abbrev S4096x64x1 : Shape := ⟨3, ![4096, 64, 1]⟩
abbrev S4096x64x2 : Shape := ⟨3, ![4096, 64, 2]⟩
abbrev S1x4096 : Shape := ⟨2, ![1, 4096]⟩
abbrev S512x4096 : Shape := ⟨2, ![512, 4096]⟩
abbrev S1024x512 : Shape := ⟨2, ![1024, 512]⟩
abbrev S1x512 : Shape := ⟨2, ![1, 512]⟩
abbrev S512x512 : Shape := ⟨2, ![512, 512]⟩

abbrev nBuf : Space → Nat
  | .hbm => 39
  | .vmem => 7
  | .smem => 0
  | _ => 0

abbrev bufTy : (tb : Table) → Fin (tcTables nBuf tb) → BufTy
  | .hbm, ⟨0, _⟩ => ⟨S512x1024, .f32⟩
  | .hbm, ⟨1, _⟩ => ⟨S4096x64, .i32⟩
  | .hbm, ⟨2, _⟩ => ⟨S4096x64, .f32⟩
  | .hbm, ⟨3, _⟩ => ⟨S4096, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S4096x64, .i32⟩
  | .hbm, ⟨8, _⟩ => ⟨S4096x64, .i32⟩
  | .hbm, ⟨9, _⟩ => ⟨S_, .i32⟩
  | .hbm, ⟨10, _⟩ => ⟨S4096x64, .i32⟩
  | .hbm, ⟨11, _⟩ => ⟨S4096x64, .i32⟩
  | .hbm, ⟨12, _⟩ => ⟨S4096, .i32⟩
  | .hbm, ⟨13, _⟩ => ⟨S4096x1, .i32⟩
  | .hbm, ⟨14, _⟩ => ⟨S4096x64, .i32⟩
  | .hbm, ⟨15, _⟩ => ⟨S_, .f32⟩
  | .hbm, ⟨16, _⟩ => ⟨S1024x4096, .f32⟩
  | .hbm, ⟨17, _⟩ => ⟨S_, .i32⟩
  | .hbm, ⟨18, _⟩ => ⟨S4096x64, .i32⟩
  | .hbm, ⟨19, _⟩ => ⟨S4096x64, .i1⟩
  | .hbm, ⟨20, _⟩ => ⟨S_, .i32⟩
  | .hbm, ⟨21, _⟩ => ⟨S4096x64, .i32⟩
  | .hbm, ⟨22, _⟩ => ⟨S4096x64, .i32⟩
  | .hbm, ⟨23, _⟩ => ⟨S4096x64, .i32⟩
  | .hbm, ⟨24, _⟩ => ⟨S_, .i32⟩
  | .hbm, ⟨25, _⟩ => ⟨S4096x64, .i32⟩
  | .hbm, ⟨26, _⟩ => ⟨S4096x64, .i1⟩
  | .hbm, ⟨27, _⟩ => ⟨S_, .i32⟩
  | .hbm, ⟨28, _⟩ => ⟨S4096x64, .i32⟩
  | .hbm, ⟨29, _⟩ => ⟨S4096x64, .i32⟩
  | .hbm, ⟨30, _⟩ => ⟨S4096x64, .i32⟩
  | .hbm, ⟨31, _⟩ => ⟨S4096x64x1, .i32⟩
  | .hbm, ⟨32, _⟩ => ⟨S4096x64x1, .i32⟩
  | .hbm, ⟨33, _⟩ => ⟨S4096x64x2, .i32⟩
  | .hbm, ⟨34, _⟩ => ⟨S1024x4096, .f32⟩
  | .hbm, ⟨35, _⟩ => ⟨S1024x4096, .bf16⟩
  | .hbm, ⟨36, _⟩ => ⟨S512x1024, .bf16⟩
  | .hbm, ⟨37, _⟩ => ⟨S1x4096, .f32⟩
  | .hbm, ⟨38, _⟩ => ⟨S512x4096, .f32⟩
  | .local _ .vmem, ⟨0, _⟩ => ⟨S512x1024, .bf16⟩
  | .local _ .vmem, ⟨1, _⟩ => ⟨S1024x512, .bf16⟩
  | .local _ .vmem, ⟨2, _⟩ => ⟨S1024x512, .bf16⟩
  | .local _ .vmem, ⟨3, _⟩ => ⟨S1x512, .f32⟩
  | .local _ .vmem, ⟨4, _⟩ => ⟨S1x512, .f32⟩
  | .local _ .vmem, ⟨5, _⟩ => ⟨S512x512, .f32⟩
  | .local _ .vmem, ⟨6, _⟩ => ⟨S512x512, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_c_1 : Ref sig .tc := ⟨.hbm, 17, rfl⟩
abbrev main_v5 : Ref sig .tc := ⟨.hbm, 18, rfl⟩
abbrev main_v6 : Ref sig .tc := ⟨.hbm, 19, rfl⟩
abbrev main_c_2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c_3 : Ref sig .tc := ⟨.hbm, 24, rfl⟩
abbrev main_v10 : Ref sig .tc := ⟨.hbm, 25, rfl⟩
abbrev main_v11 : Ref sig .tc := ⟨.hbm, 26, rfl⟩
abbrev main_c_4 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S4096x64 : S_.BroadcastsInDim S4096x64 (![] : Fin 0 → Fin S4096x64.rank)
  bcast_S4096_S4096x1_0 : S4096.BroadcastsInDim S4096x1 (![0] : Fin 1 → Fin S4096x1.rank)
  bcast_S4096x1_S4096x64_0_1 : S4096x1.BroadcastsInDim S4096x64 (![0, 1] : Fin 2 → Fin S4096x64.rank)
  bcast_S_S1024x4096 : S_.BroadcastsInDim S1024x4096 (![] : Fin 0 → Fin S1024x4096.rank)
  bcast_S4096x64_S4096x64x1_0_1 : S4096x64.BroadcastsInDim S4096x64x1 (![0, 1] : Fin 2 → Fin S4096x64x1.rank)
  concatenates_S4096x64x1_S4096x64x1_S4096x64x2_d2 : Shape.Concatenates [S4096x64x1, S4096x64x1] S4096x64x2 2
  bitsLt_bf16_f32 : FTy.bits .bf16 < FTy.bits .f32
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  scatter_S1024x4096_S4096x64x2_S4096x64_n_01_01_2_wf : ScatterDims.WF S1024x4096 S4096x64x2 S4096x64 [] [0, 1] [0, 1] 2
  dot_S512x1024_S1024x512_S512x512_1_0_0_1_n_n_wf : DotDims.WF S512x1024 S1024x512 S512x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S512x1024.size a
  hwx0_0 : ∀ i : grid0.Coords, EltTy.bits .bf16 = 32 ∨ (Rect.block (s := S512x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x4096.size a
  hwx0_1 : ∀ i : grid0.Coords, EltTy.bits .bf16 = 32 ∨ (Rect.block (s := S1024x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x4096.size a
  hwx0_3 : ∀ i : grid0.Coords, EltTy.bits .f32 = 32 ∨ (Rect.block (s := S512x4096) S512x512.size (cc0_transform_3 i) (hinb0_3 i)).WholeWords (EltTy.packing .f32)

variable [Facts₀]

def scatter_S1024x4096_S4096x64x2_S4096x64_n_01_01_2 : ScatterDims S1024x4096 S4096x64x2 S4096x64 where
  updateWindowDims := []
  insertedWindowDims := [0, 1]
  scatterDimsToOperandDims := [0, 1]
  indexVectorDim := 2
  wf := scatter_S1024x4096_S4096x64x2_S4096x64_n_01_01_2_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_v20) S512x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512x1024 : Shape := ⟨2, ![512, 1024]⟩
abbrev S4096x64 : Shape := ⟨2, ![4096, 64]⟩
abbrev S4096 : Shape := ⟨1, ![4096]⟩
abbrev S_ : Shape := ⟨0, ![]⟩
abbrev S4096x64x1 : Shape := ⟨3, ![4096, 64, 1]⟩
abbrev S1 : Shape := ⟨1, ![1]⟩
abbrev S1x1x1 : Shape := ⟨3, ![1, 1, 1]⟩
abbrev S512x4096x64 : Shape := ⟨3, ![512, 4096, 64]⟩
abbrev S1x4096x64 : Shape := ⟨3, ![1, 4096, 64]⟩
abbrev S512x4096 : Shape := ⟨2, ![512, 4096]⟩
abbrev S1x4096 : Shape := ⟨2, ![1, 4096]⟩

abbrev nBuf : Space → Nat
  | .hbm => 35
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S4096x64, .i32⟩
  | .hbm, ⟨2, _⟩ => ⟨S4096x64, .f32⟩
  | .hbm, ⟨3, _⟩ => ⟨S4096, .f32⟩
  | .hbm, ⟨4, _⟩ => ⟨S_, .i32⟩
  | .hbm, ⟨5, _⟩ => ⟨S4096x64, .i32⟩
  | .hbm, ⟨6, _⟩ => ⟨S4096x64, .i1⟩
  | .hbm, ⟨7, _⟩ => ⟨S_, .i32⟩
  | .hbm, ⟨8, _⟩ => ⟨S4096x64, .i32⟩
  | .hbm, ⟨9, _⟩ => ⟨S4096x64, .i32⟩
  | .hbm, ⟨10, _⟩ => ⟨S4096x64, .i32⟩
  | .hbm, ⟨11, _⟩ => ⟨S4096x64x1, .i32⟩
  | .hbm, ⟨12, _⟩ => ⟨S1, .i32⟩
  | .hbm, ⟨13, _⟩ => ⟨S_, .i32⟩
  | .hbm, ⟨14, _⟩ => ⟨S4096x64x1, .i32⟩
  | .hbm, ⟨15, _⟩ => ⟨S4096x64x1, .i1⟩
  | .hbm, ⟨16, _⟩ => ⟨S1x1x1, .i32⟩
  | .hbm, ⟨17, _⟩ => ⟨S4096x64x1, .i32⟩
  | .hbm, ⟨18, _⟩ => ⟨S4096x64x1, .i1⟩
  | .hbm, ⟨19, _⟩ => ⟨S4096x64x1, .i1⟩
  | .hbm, ⟨20, _⟩ => ⟨S_, .i1⟩
  | .hbm, ⟨21, _⟩ => ⟨S4096x64, .i1⟩
  | .hbm, ⟨22, _⟩ => ⟨S512x4096x64, .f32⟩
  | .hbm, ⟨23, _⟩ => ⟨S512x4096x64, .i1⟩
  | .hbm, ⟨24, _⟩ => ⟨S_, .f32⟩
  | .hbm, ⟨25, _⟩ => ⟨S512x4096x64, .f32⟩
  | .hbm, ⟨26, _⟩ => ⟨S512x4096x64, .f32⟩
  | .hbm, ⟨27, _⟩ => ⟨S1x4096x64, .f32⟩
  | .hbm, ⟨28, _⟩ => ⟨S512x4096x64, .f32⟩
  | .hbm, ⟨29, _⟩ => ⟨S512x4096x64, .f32⟩
  | .hbm, ⟨30, _⟩ => ⟨S_, .f32⟩
  | .hbm, ⟨31, _⟩ => ⟨S512x4096, .f32⟩
  | .hbm, ⟨32, _⟩ => ⟨S1x4096, .f32⟩
  | .hbm, ⟨33, _⟩ => ⟨S512x4096, .f32⟩
  | .hbm, ⟨34, _⟩ => ⟨S512x4096, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_cst : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩

abbrev nD : Nat := 1
abbrev τ : Topo := Topo.v7x

variable {F : FTy → Type} [FloatOps F]

class Facts₀ : Prop where
  bcast_S_S4096x64 : S_.BroadcastsInDim S4096x64 (![] : Fin 0 → Fin S4096x64.rank)
  bcast_S4096x64_S4096x64x1_0_1 : S4096x64.BroadcastsInDim S4096x64x1 (![0, 1] : Fin 2 → Fin S4096x64x1.rank)
  bcast_S_S4096x64x1 : S_.BroadcastsInDim S4096x64x1 (![] : Fin 0 → Fin S4096x64x1.rank)
  bcast_S1_S1x1x1_2 : S1.BroadcastsInDim S1x1x1 (![2] : Fin 1 → Fin S1x1x1.rank)
  bcast_S1x1x1_S4096x64x1_0_1_2 : S1x1x1.BroadcastsInDim S4096x64x1 (![0, 1, 2] : Fin 3 → Fin S4096x64x1.rank)
  reducesTo_S4096x64x1_S4096x64_d2 : S4096x64x1.ReducesTo [2] S4096x64
  h_S_ : 0 < S_.numel
  bcast_S4096x64_S512x4096x64_1_2 : S4096x64.BroadcastsInDim S512x4096x64 (![1, 2] : Fin 2 → Fin S512x4096x64.rank)
  bcast_S_S512x4096x64 : S_.BroadcastsInDim S512x4096x64 (![] : Fin 0 → Fin S512x4096x64.rank)
  bcast_S4096x64_S1x4096x64_1_2 : S4096x64.BroadcastsInDim S1x4096x64 (![1, 2] : Fin 2 → Fin S1x4096x64.rank)
  bcast_S1x4096x64_S512x4096x64_0_1_2 : S1x4096x64.BroadcastsInDim S512x4096x64 (![0, 1, 2] : Fin 3 → Fin S512x4096x64.rank)
  reducesTo_S512x4096x64_S512x4096_d2 : S512x4096x64.ReducesTo [2] S512x4096
  bcast_S4096_S1x4096_1 : S4096.BroadcastsInDim S1x4096 (![1] : Fin 1 → Fin S1x4096.rank)
  bcast_S1x4096_S512x4096_0_1 : S1x4096.BroadcastsInDim S512x4096 (![0, 1] : Fin 2 → Fin S512x4096.rank)
  gather_S512x1024_S4096x64x1_S512x4096x64_0_1_n_n_1_2_5121_wf : GatherDims.WF S512x1024 S4096x64x1 S512x4096x64 [0] [1] [] [1] [] 2 ![512, 1]

variable [Facts₀]

def gather_S512x1024_S4096x64x1_S512x4096x64_0_1_n_n_1_2_5121 : GatherDims S512x1024 S4096x64x1 S512x4096x64 where
  offsetDims := [0]
  collapsedSliceDims := [1]
  operandBatchingDims := []
  startIndicesBatchingDims := []
  startIndexMap := [1]
  indexVectorDim := 2
  sliceSizes := ![512, 1]
  wf := gather_S512x1024_S4096x64x1_S512x4096x64_0_1_n_n_1_2_5121_wf

class Facts : Prop extends Facts₀ where

variable [Facts]
-- ==== Proof.Spec.lean ====
/-
  The common value of the two programs, and the law that joins them.

  Both programs compute, for a batch row `b` and a neuron `n`,
      y[b, n] = (∑ f, x[b, col(n, f)] · w[n, f]) + bias[n],
  where `col(n, f)` is the input column the index word `idx[n, f]` names.  The reference gathers the 64 columns of `x`
  and sums the 64 products.  The kernel first scatters the weights into a dense `[1024, 4096]` matrix
  `S[i, n] = ∑ (r, f) with col(r, f) = i and r = n, w[r, f]` and then contracts `x` with it over all 1024 input
  columns.  The two agree because a product distributes over a finite sum of REAL numbers:
      ∑ i, x[i] · (∑ f, [col(n, f) = i] · w[n, f]) = ∑ f, x[col(n, f)] · w[n, f].
  On the extended reals distributivity fails at the infinities, so the law is stated for entries that are reals, which
  is what the precondition gives.
-/
import Idealize.ShloMosaic.PureOps.Ideal
import Idealize.ShloMosaic.Lib.ValueIdx

noncomputable section

open scoped BigOperators

namespace Cert.Spec

open Idealize.ShloMosaic Idealize.ShloMosaic.ValueIdx

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- THE LAW: contracting a row `x` of reals with the matrix obtained by scattering real weights `w r c` to the
    positions `(k r c, r)` gives, in column `n`, the sum of the products `x (k n c) · w n c`. -/
theorem contract_scatter {I R C : Type} [Fintype I] [Fintype R] [Fintype C] [DecidableEq I] [DecidableEq R]
    (x : I → EReal) (w : R → C → EReal) (k : R → C → I) (n : R)
    (hx : ∀ i, ∃ r : ℝ, x i = (r : EReal)) (hw : ∀ r c, ∃ s : ℝ, w r c = (s : EReal)) :
    ∑ i, x i * (0 + ∑ r, ∑ c, if k r c = i ∧ r = n then w r c else 0) = ∑ c, x (k n c) * w n c := by
  choose xr hxr using hx
  choose wr hwr using hw
  -- column `n` of the scattered matrix only receives the weights of row `n`, and they are reals
  have inner : ∀ i, (0 + ∑ r, ∑ c, if k r c = i ∧ r = n then w r c else 0)
      = ((∑ c, if k n c = i then wr n c else 0 : ℝ) : EReal) := by
    intro i
    rw [zero_add, Finset.sum_eq_single n]
    · rw [coe_sum]
      refine Finset.sum_congr rfl fun c _ => ?_
      by_cases h : k n c = i
      · rw [if_pos ⟨h, rfl⟩, if_pos h, hwr]
      · rw [if_neg (fun h' => h h'.1), if_neg h, EReal.coe_zero]
    · intro r _ hr
      refine Finset.sum_eq_zero fun c _ => ?_
      rw [if_neg (fun h' => hr h'.2)]
    · intro h; exact absurd (Finset.mem_univ n) h
  have lhs : ∑ i, x i * (0 + ∑ r, ∑ c, if k r c = i ∧ r = n then w r c else 0)
      = ((∑ i, xr i * ∑ c, if k n c = i then wr n c else 0 : ℝ) : EReal) := by
    rw [coe_sum]
    refine Finset.sum_congr rfl fun i _ => ?_
    rw [inner i, hxr i, EReal.coe_mul]
  have rhs : ∑ c, x (k n c) * w n c = ((∑ c, xr (k n c) * wr n c : ℝ) : EReal) := by
    rw [coe_sum]
    refine Finset.sum_congr rfl fun c _ => ?_
    rw [hxr, hwr, EReal.coe_mul]
  rw [lhs, rhs]
  refine congrArg _ ?_
  -- over the reals: distribute, exchange the sums, and the inner sum picks out the one column
  simp_rw [Finset.mul_sum]
  rw [Finset.sum_comm]
  refine Finset.sum_congr rfl fun c _ => ?_
  simp only [mul_ite, mul_zero, Finset.sum_ite_eq, Finset.mem_univ, if_true]

/-- The input column an index word names: the word read as a signed integer, clamped into `[0, 1023]`. -/
def col (idx : IVec ⟨2, ![4096, 64]⟩ 32) (n : Fin 4096) (f : Fin 64) : Fin 1024 :=
  ⟨min (idx (ix2 n f)).toInt.toNat 1023, by omega⟩

/-- The common value at batch row `b` and neuron `n`. -/
def Gat (x : (⟨2, ![512, 1024]⟩ : Shape).Idx → EReal) (idx : IVec ⟨2, ![4096, 64]⟩ 32)
    (w : (⟨2, ![4096, 64]⟩ : Shape).Idx → EReal) (bias : (⟨1, ![4096]⟩ : Shape).Idx → EReal)
    (b : Fin 512) (n : Fin 4096) : EReal :=
  (∑ f : Fin 64, x (ix2 b (col idx n f)) * w (ix2 n f)) + bias (ix1 n)

/-- The common value as an array: `G[b, n] = Gat b n`. -/
def G (x : (⟨2, ![512, 1024]⟩ : Shape).Idx → EReal) (idx : IVec ⟨2, ![4096, 64]⟩ 32)
    (w : (⟨2, ![4096, 64]⟩ : Shape).Idx → EReal) (bias : (⟨1, ![4096]⟩ : Shape).Idx → EReal) :
    (⟨2, ![512, 4096]⟩ : Shape).Idx → EReal :=
  fun j => Gat x idx w bias (j 0) (j 1)

theorem G_ix2 (x : (⟨2, ![512, 1024]⟩ : Shape).Idx → EReal) (idx : IVec ⟨2, ![4096, 64]⟩ 32)
    (w : (⟨2, ![4096, 64]⟩ : Shape).Idx → EReal) (bias : (⟨1, ![4096]⟩ : Shape).Idx → EReal) (b : Fin 512) (n : Fin 4096) :
    G x idx w bias (ix2 b n) = Gat x idx w bias b n := rfl

/-- A word in `[0, 1024)` names its own value as a column. -/
theorem col_val (idx : IVec ⟨2, ![4096, 64]⟩ 32) (n : Fin 4096) (f : Fin 64)
    (h : 0 ≤ (idx (ix2 n f)).toInt ∧ (idx (ix2 n f)).toInt < 1024) :
    ((col idx n f).val : Int) = (idx (ix2 n f)).toInt := by
  unfold col
  show ((min (idx (ix2 n f)).toInt.toNat 1023 : Nat) : Int) = _
  omega

end Cert.Spec

end
-- ==== Proof.PreRead.lean ====
/-
  What the precondition says of the argument arrays, entry by entry: every entry of `x` and of the weights is a real
  number (finite), and every index word, read signed, lies in `[0, 1024)`.
-/
import proofs.«420647_j11055245820053_2_alg».proof.Pre_finite_inputs
import proofs.«420647_j11055245820053_2_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreRead

open Cert.Pre_finite_inputs Cert.Pre_finite_inputs.Gen Idealize.ShloMosaic Idealize.ShloMosaic.ValueIdx

/-- The scalar shape has one index: a conjunction over a whole array lands at it. -/
instance subsingleton_scalar_idx : Subsingleton S_.Idx := ⟨fun a b => funext fun d => d.elim0⟩

/-- The f32 pattern `0x7F800000` (all-ones exponent, zero significand, sign clear) denotes `+∞`. -/
theorem inf_eq : Ideal.ofBits .f32 0x7F800000#32 = (⊤ : EReal) := by
  simp [Ideal.ofBits, Ideal.ieee]

/-- An extended real whose absolute value `max v (-v)` lies strictly below `+∞` is a real number:
    at `⊥` and at `⊤` the absolute value is `⊤`, which is not below itself. -/
theorem real_of_abs_lt (v : EReal) (h : Ideal.cmp .olt (max v (-v)) (Ideal.ofBits .f32 0x7F800000#32) = 1#1) :
    ∃ r : ℝ, v = (r : EReal) := by
  rw [inf_eq] at h
  induction v using EReal.rec with
  | bot => simp [Ideal.cmp] at h
  | coe r => exact ⟨r, rfl⟩
  | top => simp [Ideal.cmp] at h

/-- The precondition, read: `x` and the weights hold real numbers, and every index lies in `[0, 1024)`. -/
theorem pre_read (x : FVec Ideal S512x1024 .f32) (idx : IVec S4096x64 32) (w : FVec Ideal S4096x64 .f32)
    (bias : FVec Ideal S4096 .f32)
    (h : Cert.Pre_finite_inputs.fn (F := Ideal) x idx w bias = fun _ => 1#1) :
    (∀ i, ∃ r : ℝ, x i = (r : EReal)) ∧ (∀ j, ∃ r : ℝ, w j = (r : EReal))
      ∧ (∀ j, 0 ≤ (idx j).toInt ∧ (idx j).toInt < 1024) := by
  -- the predicate at its one index is a conjunction of four whole-array conjunctions
  have h0 := congrFun h ValueIdx.ix0
  dsimp only [fn, fn_part1] at h0
  simp only [andi, IntOp.andi_eq_one] at h0
  obtain ⟨⟨⟨hx, hw⟩, -⟩, hi⟩ := h0
  refine ⟨fun i => ?_, fun j => ?_, fun j => ?_⟩
  · -- |x i| < +∞
    have e := Host.reduce_andi_all _ _ _ _ _ hx i
    simp only [cmpf, Host.absf, broadcastInDim, constant] at e
    exact real_of_abs_lt _ e
  · -- |w j| < +∞
    have e := Host.reduce_andi_all _ _ _ _ _ hw j
    simp only [cmpf, Host.absf, broadcastInDim, constant] at e
    exact real_of_abs_lt _ e
  · -- 0 ≤ idx j and idx j < 1024, both signed
    have e := Host.reduce_andi_all _ _ _ _ _ hi j
    simp only [andi, cmpi, broadcastInDim, constantI, IntOp.andi_eq_one, IntOp.cmpi_sge, IntOp.cmpi_slt] at e
    rw [show (0#32 : BitVec 32).toInt = 0 from by decide, show (1024#32 : BitVec 32).toInt = 1024 from by decide] at e
    exact e

end Cert.PreRead

end
-- ==== Proof.RefTerm.lean ====
/-
  The reference's result as one term of its four argument arrays.

  `jnp.take(x, idx, axis = 1)` first wraps a negative index by the axis length 1024, then gathers column `idx[n, f]`
  of `x` for every row, and finally replaces what it read by the fill value wherever the wrapped index is outside
  `[0, 1023]`.  The gathered `[512, 4096, 64]` array is multiplied by the weights (broadcast over the batch axis),
  summed over the last axis from zero, and the bias (broadcast over the batch axis) is added.
-/
import proofs.«420647_j11055245820053_2_alg».proof.ReferenceIdeal
import proofs.«420647_j11055245820053_2_alg».proof.Proof.Gen.ReferenceIdeal

noncomputable section

namespace Cert.RefTerm

open Cert.ReferenceIdeal Cert.ReferenceIdeal.Gen Idealize.ShloMosaic

variable {F : FTy → Type} [FloatOps F]

/-- The index array with negative entries wrapped by the axis length. -/
def wrapIdx (idx : IVec S4096x64 32) : IVec S4096x64 32 :=
  select (cmpi .slt idx (broadcastInDim S4096x64 ![] bcast_S_S4096x64 (constantI S_ 32 0#32)))
    (addi idx (broadcastInDim S4096x64 ![] bcast_S_S4096x64 (constantI S_ 32 1024#32))) idx

/-- The wrapped index array with a trailing unit axis: the gather's start indices. -/
def startIdx (idx : IVec S4096x64 32) : IVec S4096x64x1 32 :=
  broadcastInDim S4096x64x1 ![0, 1] bcast_S4096x64_S4096x64x1_0_1 (wrapIdx idx)

/-- Where the wrapped index lies in `[0, 1023]`. -/
def inRange (idx : IVec S4096x64 32) : IVec S4096x64 1 :=
  Host.reduce IntOp.andi
    (andi (cmpi .sge (startIdx idx) (broadcastInDim S4096x64x1 ![] bcast_S_S4096x64x1 (constantI S_ 32 0#32)))
      (cmpi .sle (startIdx idx) (broadcastInDim S4096x64x1 ![0, 1, 2] bcast_S1x1x1_S4096x64x1_0_1_2
        (broadcastInDim S1x1x1 ![2] bcast_S1_S1x1x1_2 (constantI S1 32 1023#32)))))
    (constantI S_ 1 1#1) reducesTo_S4096x64x1_S4096x64_d2 h_S_

/-- `jnp.take(x, idx, axis = 1)`: the gathered columns, the fill value where the index is out of range. -/
def taken (x : FVec F S512x1024 .f32) (idx : IVec S4096x64 32) : FVec F S512x4096x64 .f32 :=
  select (broadcastInDim S512x4096x64 ![1, 2] bcast_S4096x64_S512x4096x64_1_2 (inRange idx))
    (Host.gather gather_S512x1024_S4096x64x1_S512x4096x64_0_1_n_n_1_2_5121 x (startIdx idx))
    (broadcastInDim S512x4096x64 ![] bcast_S_S512x4096x64 (constant S_ .f32 0x7FC00000#32))

/-- The reference's result: the gathered entries times the weights, summed over the last axis, plus the bias. -/
def refOut (x : FVec F S512x1024 .f32) (idx : IVec S4096x64 32) (w : FVec F S4096x64 .f32) (bias : FVec F S4096 .f32) :
    FVec F S512x4096 .f32 :=
  addf
    (Host.reduceAdd
      (mulf (taken x idx)
        (broadcastInDim S512x4096x64 ![0, 1, 2] bcast_S1x4096x64_S512x4096x64_0_1_2
          (broadcastInDim S1x4096x64 ![1, 2] bcast_S4096x64_S1x4096x64_1_2 w)))
      (constant S_ .f32 0x00000000#32) reducesTo_S512x4096x64_S512x4096_d2 h_S_)
    (broadcastInDim S512x4096 ![0, 1] bcast_S1x4096_S512x4096_0_1 (broadcastInDim S1x4096 ![1] bcast_S4096_S1x4096_1 bias))

end Cert.RefTerm

end
-- ==== Proof.RefRun.lean ====
/-
  The reference program's run: @main is a straight line of host operations (the index wrapping, the gather and the
  fill of `jnp.take`, written out where @main calls them), so every weakly fair execution terminates with the result
  buffer at the operations' composed term of the argument arrays, and the arguments unchanged.
-/
import proofs.«420647_j11055245820053_2_alg».proof.ReferenceIdeal
import proofs.«420647_j11055245820053_2_alg».proof.Proof.Gen.ReferenceIdeal
import proofs.«420647_j11055245820053_2_alg».proof.Proof.RefTerm
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- @main's thirty-one operations in order, the two calls written out at their call sites: `_take`'s twenty-three
    over its record of buffers (the zero and its broadcast, the comparison with it, the axis length and its broadcast,
    the sum, `_where`'s one select into its own record, the trailing unit axis, the bounds `1023` and `0` broadcast,
    the two comparisons and their conjunction, its reduction over the unit axis, the gather, the mask broadcast over
    the batch axis, the fill value and its broadcast, the select), then @main's own eight (the weights broadcast
    twice, the product, the zero, the sum over the last axis, the bias broadcast twice, the sum). -/
abbrev ops : List (HloOp τ sig (Elt F)) :=
  [ TRef.nullary main_call0.c (constantI S_ 32 0#32),
    TRef.unary main_call0.c main_call0.v0 (broadcastInDim S4096x64 ![] bcast_S_S4096x64),
    TRef.binary (.of main_arg1) main_call0.v0 main_call0.v1 (cmpi .slt),
    TRef.nullary main_call0.c_0 (constantI S_ 32 1024#32),
    TRef.unary main_call0.c_0 main_call0.v2 (broadcastInDim S4096x64 ![] bcast_S_S4096x64),
    TRef.binary (.of main_arg1) main_call0.v2 main_call0.v3 addi,
    TRef.ternary main_call0.v1 main_call0.v3 (.of main_arg1) main_call0.call0.v0 select,
    TRef.unary main_call0.call0.v0 main_call0.v5 (broadcastInDim S4096x64x1 ![0, 1] bcast_S4096x64_S4096x64x1_0_1),
    TRef.nullary main_call0.c_1 (constantI S1 32 1023#32),
    TRef.nullary main_call0.c_2 (constantI S_ 32 0#32),
    TRef.unary main_call0.c_2 main_call0.v6 (broadcastInDim S4096x64x1 ![] bcast_S_S4096x64x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x64x1 ![0, 1, 2] bcast_S1x1x1_S4096x64x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x64x1_S4096x64_d2 h_S_),
    TRef.binary (.of main_arg0) main_call0.v5 main_call0.v13 (fun x i => Host.gather gather_S512x1024_S4096x64x1_S512x4096x64_0_1_n_n_1_2_5121 x i),
    TRef.unary main_call0.v12 main_call0.v14 (broadcastInDim S512x4096x64 ![1, 2] bcast_S4096x64_S512x4096x64_1_2),
    TRef.nullary main_call0.cst (constant S_ .f32 0x7FC00000#32),
    TRef.unary main_call0.cst main_call0.v15 (broadcastInDim S512x4096x64 ![] bcast_S_S512x4096x64),
    TRef.ternary main_call0.v14 main_call0.v13 main_call0.v15 main_call0.v16 select,
    unary main_arg2 main_v1 (broadcastInDim S1x4096x64 ![1, 2] bcast_S4096x64_S1x4096x64_1_2 : (⟨S4096x64, .f32⟩ : BufTy).Contents (Elt F) → (⟨S1x4096x64, .f32⟩ : BufTy).Contents (Elt F)),
    unary main_v1 main_v2 (broadcastInDim S512x4096x64 ![0, 1, 2] bcast_S1x4096x64_S512x4096x64_0_1_2 : (⟨S1x4096x64, .f32⟩ : BufTy).Contents (Elt F) → (⟨S512x4096x64, .f32⟩ : BufTy).Contents (Elt F)),
    binary main_v0 main_v2 main_v3 (mulf : (⟨S512x4096x64, .f32⟩ : BufTy).Contents (Elt F) → (⟨S512x4096x64, .f32⟩ : BufTy).Contents (Elt F) → (⟨S512x4096x64, .f32⟩ : BufTy).Contents (Elt F)),
    nullary main_cst (constant S_ .f32 0x00000000#32),
    binary main_v3 main_cst main_v4 ((fun x v => Host.reduceAdd x v reducesTo_S512x4096x64_S512x4096_d2 h_S_) : (⟨S512x4096x64, .f32⟩ : BufTy).Contents (Elt F) → (⟨S_, .f32⟩ : BufTy).Contents (Elt F) → (⟨S512x4096, .f32⟩ : BufTy).Contents (Elt F)),
    unary main_arg3 main_v5 (broadcastInDim S1x4096 ![1] bcast_S4096_S1x4096_1 : (⟨S4096, .f32⟩ : BufTy).Contents (Elt F) → (⟨S1x4096, .f32⟩ : BufTy).Contents (Elt F)),
    unary main_v5 main_v6 (broadcastInDim S512x4096 ![0, 1] bcast_S1x4096_S512x4096_0_1 : (⟨S1x4096, .f32⟩ : BufTy).Contents (Elt F) → (⟨S512x4096, .f32⟩ : BufTy).Contents (Elt F)),
    binary main_v4 main_v6 main_v7 (addf : (⟨S512x4096, .f32⟩ : BufTy).Contents (Elt F) → (⟨S512x4096, .f32⟩ : BufTy).Contents (Elt F) → (⟨S512x4096, .f32⟩ : BufTy).Contents (Elt F)) ]

-- thirty-one binds re-associated: the rewrite under the chain recurses once per statement
set_option maxRecDepth 1024 in
/-- @main is that straight line: the two functions' definitions unfolded at their calls and the records at their
    fields, both sides are one chain of host steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    unary_bufs_sub .., unary_bufs_sub .., binary_bufs_sub .., nullary_bufs_sub .., binary_bufs_sub ..,
    unary_bufs_sub .., unary_bufs_sub .., binary_bufs_sub ..⟩

attribute [local irreducible] Host.reduce Host.gather Host.reduceAdd in
set_option maxRecDepth 8192 in
set_option maxHeartbeats 400000 in
/-- The fold at the result buffer is `refOut` of the argument buffers' contents: each operation's result read at its
    own buffer is its function's value of its operands' contents and at any other buffer what was there, the typed
    references' transports are the identity at these literal references, and what is left is `refOut`'s own term
    once its parts (the wrapped index, the start indices, the range mask, the filled gather) are written out. The
    reductions and the gather are kept folded throughout: the equation never looks inside them. -/
theorem out_eq (V : Valuation τ sig (Elt F)) :
    after ops V (main_v7 : DevRef τ sig)
      = Cert.RefTerm.refOut (V (main_arg0 : DevRef τ sig)) (V (main_arg1 : DevRef τ sig)) (V (main_arg2 : DevRef τ sig))
          (V (main_arg3 : DevRef τ sig)) := by
  after_results_simp
  simp only [cast_eq]
  unfold Cert.RefTerm.refOut Cert.RefTerm.taken Cert.RefTerm.inRange Cert.RefTerm.startIdx Cert.RefTerm.wrapIdx
  rfl

/-- No operation writes an argument buffer. -/
theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

/-- On every device, from any memory with zero counters: every weakly fair execution of the reference's @main terminates
    with its result at `RefTerm.refOut` of the argument arrays, and the argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v7)
          = Cert.RefTerm.refOut (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v7).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c))⟩)
    (run_seq scopedRefs_eq scopedSems_eq defs main (fun _ => ops) main_eq (fun _ => ops_sub) m ρ)

end Cert.RefRun

end
-- ==== Proof.LibGatherCols3.lean ====
/-
  A gather of whole columns of a table by a rank-3 array of start indices, read at an index given by coordinates.

  The operand is a table `[B, N]`, the start indices are `[R, C, 1]` (the last axis is the index vector, of length
  one), and the result is `[B, R, C]`: the result's axis 0 is the offset axis (it runs down the column), its last two
  axes are batch axes (they pick the start index).  On the operand's axis 1 the position is the start-index word read
  as a signed integer and clamped into `[0, N - 1]` (a slice is one column); on axis 0 it is the result's first
  coordinate.  This is `jnp.take(table, idx, axis = 1)` for a rank-2 `idx`.
-/
import Idealize.ShloMosaic.PureOps.ShapeOps
import Idealize.ShloMosaic.Lib.ValueIdx

noncomputable section

namespace Cert.LibGatherCols3

open Idealize.ShloMosaic Idealize.ShloMosaic.ValueIdx

variable {α : Type}

/-- The dimension numbers of a gather of whole columns by a rank-3 index array: operand `[B, N]`, start indices
    `[R, C, 1]`, result `[B, R, C]`; the result's axis 0 is the offset axis, the operand's axis 1 is collapsed and is
    the one the start index names, the index vector is the start indices' axis 2, and a slice is one column `[B, 1]`. -/
abbrev cols3Dims (B N R C : Nat)
    (wf : GatherDims.WF ⟨2, ![B, N]⟩ ⟨3, ![R, C, 1]⟩ ⟨3, ![B, R, C]⟩ [0] [1] [] [1] [] 2 ![B, 1]) :
    GatherDims ⟨2, ![B, N]⟩ ⟨3, ![R, C, 1]⟩ ⟨3, ![B, R, C]⟩ where
  offsetDims := [0]
  collapsedSliceDims := [1]
  operandBatchingDims := []
  startIndicesBatchingDims := []
  startIndexMap := [1]
  indexVectorDim := 2
  sliceSizes := ![B, 1]
  wf := wf

/-- A COLUMN GATHER BY A RANK-3 INDEX ARRAY READ AT `(b, r, c)`: the operand at row `b` and column `idx[r, c, 0]`
    (read signed, clamped into `[0, N − 1]`). -/
theorem gather_cols3_apply {B N R C w : Nat} (hN : 0 < N)
    (wf : GatherDims.WF ⟨2, ![B, N]⟩ ⟨3, ![R, C, 1]⟩ ⟨3, ![B, R, C]⟩ [0] [1] [] [1] [] 2 ![B, 1])
    (x : (⟨2, ![B, N]⟩ : Shape).Idx → α) (idx : IVec ⟨3, ![R, C, 1]⟩ w) (b : Fin B) (r : Fin R) (c : Fin C) :
    Host.gather (cols3Dims B N R C wf) x idx (ix3 b r c)
      = x (ix2 b (⟨min (idx (ix3 r c (0 : Fin 1))).toInt.toNat (N - 1), by omega⟩ : Fin N)) := by
  unfold Host.gather
  congr 1
  funext e
  refine Fin.ext ?_
  match e with
  | ⟨0, _⟩ =>
    -- the offset axis: start zero, the result's first coordinate
    show (cols3Dims B N R C wf).start (ix3 b r c) idx 0 + (cols3Dims B N R C wf).batchCoord (ix3 b r c) 0
        + (cols3Dims B N R C wf).offCoord (ix3 b r c) 0 = _
    rw [GatherDims.batchCoord_eq_zero _ _ _ List.not_mem_nil]
    unfold GatherDims.start
    rw [dif_neg (show (0 : Fin 2) ∉ (cols3Dims B N R C wf).startIndexMap from
      fun h => absurd (List.mem_singleton.mp h) (show ¬ ((0 : Fin 2) = 1) by decide))]
    simp only [Nat.add_zero, Nat.zero_add]
    rfl
  | ⟨1, _⟩ =>
    -- the indexed axis: the clamped start, nothing added
    show (cols3Dims B N R C wf).start (ix3 b r c) idx 1 + (cols3Dims B N R C wf).batchCoord (ix3 b r c) 1
        + (cols3Dims B N R C wf).offCoord (ix3 b r c) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (cols3Dims B N R C wf).startIndexMap from List.mem_singleton.mpr rfl)]
    have hsi : (cols3Dims B N R C wf).siIdx (ix3 b r c) ⟨List.idxOf (1 : Fin 2) (cols3Dims B N R C wf).startIndexMap,
        List.idxOf_lt_length_iff.2 (List.mem_singleton.mpr rfl)⟩ = ix3 r c (0 : Fin 1) := by
      funext q; refine Fin.ext ?_
      match q with
      | ⟨0, _⟩ => rfl
      | ⟨1, _⟩ => rfl
      | ⟨2, _⟩ => rfl
    rw [hsi]
    rfl

end Cert.LibGatherCols3

end
-- ==== Proof.RefTaken.lean ====
/-
  `jnp.take(x, idx, axis = 1)` read at an index, for indices in range: at `(b, n, f)` it is `x` at row `b` and the
  column the index word `idx[n, f]` names.  An index in `[0, 1024)` is not negative, so the wrap leaves it alone; it
  passes the range test, so the fill value is never selected; and the gather's clamp into `[0, 1023]` changes nothing.
-/
import proofs.«420647_j11055245820053_2_alg».proof.Proof.RefTerm
import proofs.«420647_j11055245820053_2_alg».proof.Proof.LibGatherCols3
import proofs.«420647_j11055245820053_2_alg».proof.Proof.Spec
import Idealize.ShloMosaic.Lib.ValueIdx
import Idealize.ShloMosaic.Lib.ValueLayout
import Idealize.ShloMosaic.Lib.Pipeline.Value
import Idealize.ShloMosaic.Lib.ReduceAll
import Idealize.ShloMosaic.Lib.StableHlo.Predicate

noncomputable section

namespace Cert.RefTaken

open Cert.ReferenceIdeal Cert.ReferenceIdeal.Gen Cert.RefTerm Idealize.ShloMosaic Idealize.ShloMosaic.ValueIdx

/-- A left fold by `and` from 1 over words that are all 1 is 1. -/
theorem foldl_andi_one {ι : Type} (g : ι → BitVec 1) (l : List ι) (h : ∀ n ∈ l, g n = 1#1) :
    l.foldl (fun r n => IntOp.andi r (g n)) 1#1 = 1#1 := by
  induction l with
  | nil => rfl
  | cons a l ih =>
    rw [List.foldl_cons, h a List.mem_cons_self]
    have e : IntOp.andi (1#1 : BitVec 1) 1#1 = 1#1 := by decide
    rw [e]
    exact ih (fun n hn => h n (List.mem_cons_of_mem _ hn))

/-- A word that is not negative is left alone by the wrap. -/
theorem wrapIdx_apply (idx : IVec S4096x64 32) (j : S4096x64.Idx) (h : 0 ≤ (idx j).toInt) : wrapIdx idx j = idx j := by
  show Scalar.select (IntOp.cmpi .slt (idx j) 0#32) (IntOp.addi (idx j) 1024#32) (idx j) = idx j
  have e : IntOp.cmpi .slt (idx j) 0#32 = 0#1 := by
    unfold IntOp.cmpi
    show BitVec.ofBool ((idx j).slt 0#32) = 0#1
    have : (idx j).slt 0#32 = false := by
      rw [BitVec.slt_eq_decide]
      have z : (0#32 : BitVec 32).toInt = 0 := by decide
      rw [z]
      exact decide_eq_false (by omega)
    rw [this]; rfl
  rw [e, select_zero]

/-- The start indices at `(n, f, c)` are the wrapped index at `(n, f)`. -/
theorem startIdx_apply (idx : IVec S4096x64 32) (n : Fin 4096) (f : Fin 64) (c : Fin 1) :
    startIdx idx (ix3 n f c) = wrapIdx idx (ix2 n f) := by
  unfold startIdx
  exact broadcastInDim_apply _ _ _ (ix3 n f c) (ix2 n f) (fun a => match a with
    | ⟨0, _⟩ => rfl
    | ⟨1, _⟩ => rfl)

/-- For indices in `[0, 1024)` the range test passes everywhere. -/
theorem inRange_one (idx : IVec S4096x64 32) (hidx : ∀ j, 0 ≤ (idx j).toInt ∧ (idx j).toInt < 1024) (j : S4096x64.Idx) :
    inRange idx j = 1#1 := by
  unfold inRange
  rw [Host.reduce_eq_foldl]
  show List.foldl _ 1#1 _ = 1#1
  refine foldl_andi_one _ _ (fun i _ => ?_)
  obtain ⟨n, f, c, rfl⟩ : ∃ (n : Fin 4096) (f : Fin 64) (c : Fin 1), i = ix3 n f c := ⟨_, _, _, eq_ix3 i⟩
  show IntOp.andi (IntOp.cmpi .sge (startIdx idx (ix3 n f c)) 0#32)
      (IntOp.cmpi .sle (startIdx idx (ix3 n f c)) 1023#32) = 1#1
  rw [startIdx_apply, wrapIdx_apply idx _ (hidx _).1]
  obtain ⟨h0, h1⟩ := hidx (ix2 n f)
  have e1 : IntOp.cmpi .sge (idx (ix2 n f)) 0#32 = 1#1 := by
    unfold IntOp.cmpi
    show BitVec.ofBool ((0#32 : BitVec 32).sle (idx (ix2 n f))) = 1#1
    have : (0#32 : BitVec 32).sle (idx (ix2 n f)) = true := by
      rw [BitVec.sle_eq_decide]
      have z : (0#32 : BitVec 32).toInt = 0 := by decide
      rw [z]
      exact decide_eq_true h0
    rw [this]; rfl
  have e2 : IntOp.cmpi .sle (idx (ix2 n f)) 1023#32 = 1#1 := by
    unfold IntOp.cmpi
    show BitVec.ofBool ((idx (ix2 n f)).sle 1023#32) = 1#1
    have : (idx (ix2 n f)).sle 1023#32 = true := by
      rw [BitVec.sle_eq_decide]
      have z : (1023#32 : BitVec 32).toInt = 1023 := by decide
      rw [z]
      exact decide_eq_true (by omega)
    rw [this]; rfl
  rw [e1, e2]; decide

/-- The gathered array at `(b, n, f)`, for indices in `[0, 1024)`: `x` at row `b` and the column `idx[n, f]` names. -/
theorem taken_apply (x : FVec Ideal S512x1024 .f32) (idx : IVec S4096x64 32)
    (hidx : ∀ j, 0 ≤ (idx j).toInt ∧ (idx j).toInt < 1024) (b : Fin 512) (n : Fin 4096) (f : Fin 64) :
    taken (F := Ideal) x idx (ix3 b n f) = x (ix2 b (Cert.Spec.col idx n f)) := by
  unfold taken
  rw [select_apply]
  have hc : broadcastInDim S512x4096x64 ![1, 2] bcast_S4096x64_S512x4096x64_1_2 (inRange idx) (ix3 b n f) = 1#1 :=
    inRange_one idx hidx _
  rw [hc, select_one]
  show Host.gather (Cert.LibGatherCols3.cols3Dims 512 1024 4096 64 _) x (startIdx idx) (ix3 b n f) = _
  rw [Cert.LibGatherCols3.gather_cols3_apply (by decide)]
  have e : startIdx idx (ix3 n f (0 : Fin 1)) = idx (ix2 n f) := by
    rw [startIdx_apply, wrapIdx_apply idx _ (hidx _).1]
  refine congrArg x (congrArg (ix2 b) (Fin.ext ?_))
  show min (startIdx idx (ix3 n f (0 : Fin 1))).toInt.toNat (1024 - 1) = min (idx (ix2 n f)).toInt.toNat 1023
  rw [e]

end Cert.RefTaken

end
-- ==== Proof.RefValue.lean ====
/-
  The reference's result is the common value: at `(b, n)` the sum over the 64 positions `f` of the gathered entry times
  the weight, from zero, plus the bias.
-/
import proofs.«420647_j11055245820053_2_alg».proof.Proof.RefTerm
import proofs.«420647_j11055245820053_2_alg».proof.Proof.RefTaken
import proofs.«420647_j11055245820053_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RefValue

open Cert.ReferenceIdeal Cert.ReferenceIdeal.Gen Cert.RefTerm Idealize.ShloMosaic Idealize.ShloMosaic.ValueIdx

/-- The sum runs over the last axis of the `[512, 4096, 64]` array. -/
theorem reduces_last : Shape.Reduces S512x4096x64 [2] S512x4096 := by decide

/-- Over the result index `(b, n)`, the index with `k` inserted on the last axis is `(b, n, k)`. -/
theorem lift_ix2 (h : Shape.Reduces S512x4096x64 [2] S512x4096) (b : Fin 512) (n : Fin 4096) (k : Fin 64) :
    h.lift (ix2 b n) k = ix3 b n k := by
  funext a; refine Fin.ext ?_
  match a with
  | ⟨0, _⟩ => rfl
  | ⟨1, _⟩ => rfl
  | ⟨2, _⟩ => rfl

/-- The weights, given a leading unit axis and then repeated along the batch axis, read the weight `w[n, k]`. -/
theorem wBroadcast_apply (w : FVec Ideal S4096x64 .f32) (b : Fin 512) (n : Fin 4096) (k : Fin 64) :
    broadcastInDim S512x4096x64 ![0, 1, 2] bcast_S1x4096x64_S512x4096x64_0_1_2
      (broadcastInDim S1x4096x64 ![1, 2] bcast_S4096x64_S1x4096x64_1_2 w) (ix3 b n k) = w (ix2 n k) := by
  rw [broadcastInDim_apply _ _ _ (ix3 b n k) (ix3 (0 : Fin 1) n k) (by
    intro a
    match a with
    | ⟨0, _⟩ => rfl
    | ⟨1, _⟩ => rfl
    | ⟨2, _⟩ => rfl)]
  rw [broadcastInDim_apply _ _ _ (ix3 (0 : Fin 1) n k) (ix2 n k) (by
    intro a
    match a with
    | ⟨0, _⟩ => rfl
    | ⟨1, _⟩ => rfl)]

/-- The bias, given a leading unit axis and then repeated along the batch axis, reads the bias `bias[n]`. -/
theorem biasBroadcast_apply (bias : FVec Ideal S4096 .f32) (b : Fin 512) (n : Fin 4096) :
    broadcastInDim S512x4096 ![0, 1] bcast_S1x4096_S512x4096_0_1
      (broadcastInDim S1x4096 ![1] bcast_S4096_S1x4096_1 bias) (ix2 b n) = bias (ix1 n) := by
  rw [broadcastInDim_apply _ _ _ (ix2 b n) (ix2 (0 : Fin 1) n) (by
    intro a
    match a with
    | ⟨0, _⟩ => rfl
    | ⟨1, _⟩ => rfl)]
  rw [broadcastInDim_apply _ _ _ (ix2 (0 : Fin 1) n) (ix1 n) (by
    intro a
    match a with
    | ⟨0, _⟩ => rfl)]

/-- The host's sum of the products over the last axis, from zero, at `(b, n)`: the sum over the 64 positions of the
    gathered entry times the weight. -/
theorem reduce_apply (x : FVec Ideal S512x1024 .f32) (idx : IVec S4096x64 32) (w : FVec Ideal S4096x64 .f32)
    (hidx : ∀ j, 0 ≤ (idx j).toInt ∧ (idx j).toInt < 1024) (b : Fin 512) (n : Fin 4096) :
    Host.reduceAdd
      (mulf (taken (F := Ideal) x idx)
        (broadcastInDim S512x4096x64 ![0, 1, 2] bcast_S1x4096x64_S512x4096x64_0_1_2
          (broadcastInDim S1x4096x64 ![1, 2] bcast_S4096x64_S1x4096x64_1_2 w)))
      (constant S_ .f32 0x00000000#32) reducesTo_S512x4096x64_S512x4096_d2 h_S_ (ix2 b n)
      = ∑ f : Fin 64, x (ix2 b (Cert.Spec.col idx n f)) * w (ix2 n f) := by
  show Ideal.hostReduceAdd reducesTo_S512x4096x64_S512x4096_d2 _ (Ideal.ofBits .f32 0x00000000#32) (ix2 b n) = _
  rw [Ideal.hostReduceAdd_single reducesTo_S512x4096x64_S512x4096_d2 reduces_last, Ideal.ofBits_zero_f32, zero_add]
  show ∑ k : Fin 64, mulf (taken (F := Ideal) x idx)
      (broadcastInDim S512x4096x64 ![0, 1, 2] bcast_S1x4096x64_S512x4096x64_0_1_2
        (broadcastInDim S1x4096x64 ![1, 2] bcast_S4096x64_S1x4096x64_1_2 w)) (reduces_last.lift (ix2 b n) k) = _
  refine Finset.sum_congr rfl fun k _ => ?_
  rw [lift_ix2, mulf_apply, Cert.RefTaken.taken_apply x idx hidx b n k, wBroadcast_apply]

/-- For indices in `[0, 1024)` the reference's result array is the common value `Spec.G` of its arguments. -/
theorem refOut_eq (x : FVec Ideal S512x1024 .f32) (idx : IVec S4096x64 32) (w : FVec Ideal S4096x64 .f32)
    (bias : FVec Ideal S4096 .f32) (hidx : ∀ j, 0 ≤ (idx j).toInt ∧ (idx j).toInt < 1024) :
    refOut (F := Ideal) x idx w bias = Cert.Spec.G x idx w bias := by
  funext j
  obtain ⟨b, n, rfl⟩ : ∃ (b : Fin 512) (n : Fin 4096), j = ix2 b n := ⟨j 0, j 1, eq_ix2 j⟩
  show _ = Cert.Spec.Gat x idx w bias b n
  unfold refOut Cert.Spec.Gat
  rw [addf_apply, reduce_apply x idx w hidx b n, biasBroadcast_apply]

end Cert.RefValue

end
-- ==== Proof.KernelTerm.lean ====
/-
  What the kernel's host side computes before the launch, as terms of the argument arrays.

  The index array is clamped into `[0, 1023]`; the scatter's index pairs are built from the clamped input column
  (negative values wrapped by 1024, which a clamped value never is) and from the neuron number `n` itself (an iota
  along the first axis broadcast along the second, negative values wrapped by 4096); the two `[4096, 64, 1]` arrays
  are joined along a last axis of length two.  The weights are then scatter-added at those pairs into a zero
  `[1024, 4096]` matrix: entry `(i, n)` collects the weights `w[n, f]` of the positions whose column is `i`.
-/
import proofs.«420647_j11055245820053_2_alg».proof.KernelIdeal
import proofs.«420647_j11055245820053_2_alg».proof.Proof.Gen.KernelIdeal

noncomputable section

namespace Cert.KernelTerm

open Cert.KernelIdeal Cert.KernelIdeal.Gen Idealize.ShloMosaic

variable {F : FTy → Type} [FloatOps F]

/-- The index array clamped into `[0, 1023]`. -/
def clipIdx (idx : IVec S4096x64 32) : IVec S4096x64 32 :=
  minsi (broadcastInDim S4096x64 ![] bcast_S_S4096x64 (id (constantI S_ 32 1023#32)))
    (maxsi (broadcastInDim S4096x64 ![] bcast_S_S4096x64 (id (constantI S_ 32 0#32))) idx)

/-- The scatter's row words: the clamped column, a negative one wrapped by 1024, with a trailing unit axis. -/
def rowWords (idx : IVec S4096x64 32) : IVec S4096x64x1 32 :=
  broadcastInDim S4096x64x1 ![0, 1] bcast_S4096x64_S4096x64x1_0_1
    (select (cmpi .slt (clipIdx idx) (broadcastInDim S4096x64 ![] bcast_S_S4096x64 (constantI S_ 32 0#32)))
      (addi (clipIdx idx) (broadcastInDim S4096x64 ![] bcast_S_S4096x64 (constantI S_ 32 1024#32))) (clipIdx idx))

/-- The neuron number at every position `(n, f)`. -/
def neuronIdx : IVec S4096x64 32 :=
  broadcastInDim S4096x64 ![0, 1] bcast_S4096x1_S4096x64_0_1
    (broadcastInDim S4096x1 ![0] bcast_S4096_S4096x1_0 (iotaInDim S4096 32 0))

/-- The scatter's column words: the neuron number, a negative one wrapped by 4096, with a trailing unit axis. -/
def colWords : IVec S4096x64x1 32 :=
  broadcastInDim S4096x64x1 ![0, 1] bcast_S4096x64_S4096x64x1_0_1
    (select (cmpi .slt neuronIdx (broadcastInDim S4096x64 ![] bcast_S_S4096x64 (constantI S_ 32 0#32)))
      (addi neuronIdx (broadcastInDim S4096x64 ![] bcast_S_S4096x64 (constantI S_ 32 4096#32))) neuronIdx)

/-- The scatter's index pairs `[4096, 64, 2]`: component 0 the row word, component 1 the column word. -/
def scatIdx (idx : IVec S4096x64 32) : IVec S4096x64x2 32 :=
  concatenate S4096x64x2 2 [⟨S4096x64x1, rowWords idx⟩, ⟨S4096x64x1, colWords⟩]
    concatenates_S4096x64x1_S4096x64x1_S4096x64x2_d2

/-- The scattered weight matrix `[1024, 4096]`. -/
def weightMat (idx : IVec S4096x64 32) (w : FVec F S4096x64 .f32) : FVec F S1024x4096 .f32 :=
  Host.scatterAdd scatter_S1024x4096_S4096x64x2_S4096x64_n_01_01_2
    (broadcastInDim S1024x4096 ![] bcast_S_S1024x4096 (constant S_ .f32 0x00000000#32)) (scatIdx idx) w

end Cert.KernelTerm

end
-- ==== Proof.KernelHost.lean ====
/-
  The arrays the kernel's launch finds: what the host operations before the launch have written into the three
  buffers the launch stages, as terms of the argument arrays — the scattered weight matrix and `x`, each narrowed to
  bf16, and the bias as a `[1, 4096]` row.
-/
import proofs.«420647_j11055245820053_2_alg».proof.Proof.Gen.KernelIdeal.Frame
import proofs.«420647_j11055245820053_2_alg».proof.Proof.KernelTerm
import Idealize.ShloMosaic.Lib.StableHlo.Run

noncomputable section

namespace Cert.KernelHost

open Cert.KernelIdeal Cert.KernelIdeal.Gen Cert.KernelTerm Idealize.ShloMosaic Idealize.ShloMosaic.TcCoe Idealize.SL.Sem Idealize.ShloMosaic.StableHlo

variable {F : FTy → Type} [FloatOps F]
variable (m : (ℓ : Loc nD τ sig) → Buf (Elt F) ℓ)

/-- The host operations before the index pairs are joined: the two scalar constants, the clamp's six, and @main's
    first twenty-one (the neuron numbers, the zero matrix, the two wrapped index arrays with their trailing unit axis). -/
def preOps : List (HloOp τ sig (Elt F)) := hostOps0 ++ hostOps0_1 ++ hostOps0_2.take 21

/-- The last five host operations: the join of the index pairs, the scatter-add, the two narrowings, the reshape. -/
def tailOps : List (HloOp τ sig (Elt F)) := hostOps0_2.drop 21

/-- The host operations before the launch are those two stretches, one after the other. -/
theorem flat_split :
    (List.flatten [hostOps0, hostOps0_1, hostOps0_2] : List (HloOp τ sig (Elt F))) = preOps ++ tailOps := by
  simp only [preOps, tailOps, List.flatten_cons, List.flatten_nil, List.append_nil, List.append_assoc, List.take_append_drop]

/-- What the last five operations leave in the launch's three operands, from any contents `W` before them: the
    scatter-add of the third argument at the joined index pairs into `W`'s zero matrix, narrowed; the first argument
    narrowed; the fourth argument as one row. -/
theorem tail_v19 (W : Valuation τ sig (Elt F)) :
    after tailOps W (main_v19 : DevRef τ sig)
      = truncf .bf16 (Host.scatterAdd scatter_S1024x4096_S4096x64x2_S4096x64_n_01_01_2 (W (main_v4 : DevRef τ sig))
          (concatenate S4096x64x2 2 [⟨S4096x64x1, W (main_v15 : DevRef τ sig)⟩, ⟨S4096x64x1, W (main_v16 : DevRef τ sig)⟩]
            concatenates_S4096x64x1_S4096x64x1_S4096x64x2_d2) (W (main_arg2 : DevRef τ sig))) bitsLt_bf16_f32 := by
  simp only [tailOps, hostOps0_2, List.drop_succ_cons, List.drop_zero]
  after_results

theorem tail_v20 (W : Valuation τ sig (Elt F)) :
    after tailOps W (main_v20 : DevRef τ sig) = truncf .bf16 (W (main_arg0 : DevRef τ sig)) bitsLt_bf16_f32 := by
  simp only [tailOps, hostOps0_2, List.drop_succ_cons, List.drop_zero]
  after_results

theorem tail_v21 (W : Valuation τ sig (Elt F)) :
    after tailOps W (main_v21 : DevRef τ sig) = shapeCast S1x4096 (W (main_arg3 : DevRef τ sig)) shapeCasts_S4096_S1x4096 := by
  simp only [tailOps, hostOps0_2, List.drop_succ_cons, List.drop_zero]
  after_results
  rfl

set_option maxHeartbeats 1000000 in
/-- What the operations before the join leave, from any contents `V0`: the zero matrix, the row words of the index
    argument, the column words, and the arguments as they were. -/
theorem pre_v4 (V0 : Valuation τ sig (Elt F)) :
    after preOps V0 (main_v4 : DevRef τ sig)
      = broadcastInDim S1024x4096 ![] bcast_S_S1024x4096 (constant S_ .f32 0x00000000#32) := by
  simp only [preOps, hostOps0, hostOps0_1, hostOps0_2, List.take_succ_cons, List.take_zero, List.cons_append, List.nil_append]
  after_results_simp

set_option maxHeartbeats 1000000 in
theorem pre_arg0 (V0 : Valuation τ sig (Elt F)) :
    after preOps V0 (main_arg0 : DevRef τ sig) = V0 (main_arg0 : DevRef τ sig) := by
  simp only [preOps, hostOps0, hostOps0_1, hostOps0_2, List.take_succ_cons, List.take_zero, List.cons_append, List.nil_append]
  after_results_simp

set_option maxHeartbeats 1000000 in
theorem pre_v15 (V0 : Valuation τ sig (Elt F)) :
    after preOps V0 (main_v15 : DevRef τ sig) = rowWords (V0 (main_arg1 : DevRef τ sig)) := by
  simp only [preOps, hostOps0, hostOps0_1, hostOps0_2, List.take_succ_cons, List.take_zero, List.cons_append, List.nil_append]
  after_results_simp
  simp only [cast_eq]
  unfold rowWords clipIdx
  rfl

set_option maxHeartbeats 1000000 in
theorem pre_v16 (V0 : Valuation τ sig (Elt F)) :
    after preOps V0 (main_v16 : DevRef τ sig) = (colWords : IVec S4096x64x1 32) := by
  simp only [preOps, hostOps0, hostOps0_1, hostOps0_2, List.take_succ_cons, List.take_zero, List.cons_append, List.nil_append]
  after_results_simp
  unfold colWords neuronIdx
  rfl

set_option maxHeartbeats 1000000 in
theorem pre_arg2 (V0 : Valuation τ sig (Elt F)) :
    after preOps V0 (main_arg2 : DevRef τ sig) = V0 (main_arg2 : DevRef τ sig) := by
  simp only [preOps, hostOps0, hostOps0_1, hostOps0_2, List.take_succ_cons, List.take_zero, List.cons_append, List.nil_append]
  after_results_simp

set_option maxHeartbeats 1000000 in
theorem pre_arg3 (V0 : Valuation τ sig (Elt F)) :
    after preOps V0 (main_arg3 : DevRef τ sig) = V0 (main_arg3 : DevRef τ sig) := by
  simp only [preOps, hostOps0, hostOps0_1, hostOps0_2, List.take_succ_cons, List.take_zero, List.cons_append, List.nil_append]
  after_results_simp

/-- The launch's second operand: the scattered weight matrix of the index and weight arguments, narrowed to bf16. -/
theorem V_v19 (c : Dev nD) :
    (V m c main_v19 : FVec F S1024x4096 .bf16)
      = truncf .bf16 (weightMat (m ((c : Thread nD τ).loc main_arg1)) (m ((c : Thread nD τ).loc main_arg2))) bitsLt_bf16_f32 := by
  show StableHlo.after (List.flatten [hostOps0, hostOps0_1, hostOps0_2]) (fun b => m (c, b)) (Proc.devRef .tc main_v19) = _
  rw [flat_split, StableHlo.after_append, tail_v19, pre_v4, pre_v15, pre_v16, pre_arg2]
  rfl

/-- The launch's first operand: `x` narrowed to bf16. -/
theorem V_v20 (c : Dev nD) :
    (V m c main_v20 : FVec F S512x1024 .bf16) = truncf .bf16 (m ((c : Thread nD τ).loc main_arg0)) bitsLt_bf16_f32 := by
  show StableHlo.after (List.flatten [hostOps0, hostOps0_1, hostOps0_2]) (fun b => m (c, b)) (Proc.devRef .tc main_v20) = _
  rw [flat_split, StableHlo.after_append, tail_v20, pre_arg0]

/-- The launch's third operand: the bias as one row. -/
theorem V_v21 (c : Dev nD) :
    (V m c main_v21 : FVec F S1x4096 .f32) = shapeCast S1x4096 (m ((c : Thread nD τ).loc main_arg3)) shapeCasts_S4096_S1x4096 := by
  show StableHlo.after (List.flatten [hostOps0, hostOps0_1, hostOps0_2]) (fun b => m (c, b)) (Proc.devRef .tc main_v21) = _
  rw [flat_split, StableHlo.after_append, tail_v21, pre_arg3]

end Cert.KernelHost

end
-- ==== Proof.KernelPayload.lean ====
/-
  The kernel body's one stored value, read at an index.

  At a grid point the body loads the whole `x` block `[512, 1024]`, a `[1024, 512]` block of the scattered weight
  matrix and a `[1, 512]` block of the bias, multiplies the first two on the matrix unit into a zero accumulator and
  adds the bias row broadcast down the 512 batch rows.  Over the extended reals the product into a zero accumulator is
  the plain sum over the 1024 contracted columns, so the stored block holds, at row `p` and column `q`,
      (∑ k, x[p, k] · s[k, q]) + bias[0, q].
-/
import proofs.«420647_j11055245820053_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelPayload

open Cert.KernelIdeal Cert.KernelIdeal.Gen Idealize.ShloMosaic Idealize.ShloMosaic.ValueIdx

/-! ### The contraction's index maps, axis by axis -/

theorem lhs_dot_0 (j : S512x512.Idx) (k : dot_S512x1024_S1024x512_S512x512_1_0_0_1_n_n.contr.Idx) :
    (dot_S512x1024_S1024x512_S512x512_1_0_0_1_n_n.lhsIdx j k 0 : ℕ) = j 0 := by
  simp [DotDims.lhsIdx, dot_S512x1024_S1024x512_S512x512_1_0_0_1_n_n]; rfl
theorem lhs_dot_1 (j : S512x512.Idx) (k : dot_S512x1024_S1024x512_S512x512_1_0_0_1_n_n.contr.Idx) :
    (dot_S512x1024_S1024x512_S512x512_1_0_0_1_n_n.lhsIdx j k 1 : ℕ) = k ⟨0, by decide⟩ := by
  simp [DotDims.lhsIdx, dot_S512x1024_S1024x512_S512x512_1_0_0_1_n_n]; rfl
theorem rhs_dot_0 (j : S512x512.Idx) (k : dot_S512x1024_S1024x512_S512x512_1_0_0_1_n_n.contr.Idx) :
    (dot_S512x1024_S1024x512_S512x512_1_0_0_1_n_n.rhsIdx j k 0 : ℕ) = k ⟨0, by decide⟩ := by
  simp [DotDims.rhsIdx, dot_S512x1024_S1024x512_S512x512_1_0_0_1_n_n]; rfl
theorem rhs_dot_1 (j : S512x512.Idx) (k : dot_S512x1024_S1024x512_S512x512_1_0_0_1_n_n.contr.Idx) :
    (dot_S512x1024_S1024x512_S512x512_1_0_0_1_n_n.rhsIdx j k 1 : ℕ) = j 1 := by
  simp [DotDims.rhsIdx, dot_S512x1024_S1024x512_S512x512_1_0_0_1_n_n]; rfl

/-- The matrix product into a zero accumulator, at row `p` and column `q`: the sum over the 1024 contracted columns. -/
theorem matmul_zero_at (x0 : FVec Ideal S512x1024 .bf16) (x1 : FVec Ideal S1024x512 .bf16) (p q : Fin 512) :
    matmul dot_S512x1024_S1024x512_S512x512_1_0_0_1_n_n none x0 x1 (constant S512x512 .f32 0x00000000#32) (ix2 p q)
      = ∑ k : Fin 1024, x0 (ix2 p k) * x1 (ix2 k q) := by
  show FloatOps.matmul dot_S512x1024_S1024x512_S512x512_1_0_0_1_n_n none x0 x1 (constant S512x512 .f32 0x00000000#32) (ix2 p q) = _
  rw [Ideal.matmul_constant_zero_apply,
    ← Equiv.sum_comp (contrEquiv1 dot_S512x1024_S1024x512_S512x512_1_0_0_1_n_n 1024 rfl rfl).symm]
  refine Finset.sum_congr rfl fun k _ => ?_
  have hk := contrEquiv1_symm_val dot_S512x1024_S1024x512_S512x512_1_0_0_1_n_n 1024 rfl rfl k
  have hl : dot_S512x1024_S1024x512_S512x512_1_0_0_1_n_n.lhsIdx (ix2 p q)
      ((contrEquiv1 dot_S512x1024_S1024x512_S512x512_1_0_0_1_n_n 1024 rfl rfl).symm k) = ix2 p k := by
    funext a; apply Fin.ext
    match a with
    | ⟨0, _⟩ => exact lhs_dot_0 _ _
    | ⟨1, _⟩ => exact (lhs_dot_1 _ _).trans hk
  have hr : dot_S512x1024_S1024x512_S512x512_1_0_0_1_n_n.rhsIdx (ix2 p q)
      ((contrEquiv1 dot_S512x1024_S1024x512_S512x512_1_0_0_1_n_n 1024 rfl rfl).symm k) = ix2 k q := by
    funext a; apply Fin.ext
    match a with
    | ⟨0, _⟩ => exact (rhs_dot_0 _ _).trans hk
    | ⟨1, _⟩ => exact rhs_dot_1 _ _
  rw [hl, hr]

/-- THE STORED BLOCK at row `p` and column `q`: the contraction of row `p` of the `x` block with column `q` of the
    weight-matrix block, plus the bias block's entry in column `q`. -/
theorem pay_at (x0 : FVec Ideal S512x1024 .bf16) (x1 : FVec Ideal S1024x512 .bf16) (x2 : FVec Ideal S1x512 .f32)
    (p q : Fin 512) :
    k0_pay1 (F := Ideal) x0 x1 x2 (ix2 p q)
      = (∑ k : Fin 1024, x0 (ix2 p k) * x1 (ix2 k q)) + x2 (ix2 (0 : Fin 1) q) := by
  unfold k0_pay1
  rw [shapeCast_self, shapeCast_self, shapeCast_self, addf_apply, matmul_zero_at, broadcastTo_1b_ab_apply]

end Cert.KernelPayload

end
-- ==== Proof.KernelBlocks.lean ====
/-
  From the blocks to the array: what the kernel's launch leaves in its result array.

  The launch runs eight grid points.  Point `t` stages the whole `x` array, the column block `[:, 512 t : 512 t + 512]`
  of the weight matrix and of the bias row, and writes back the column block `[:, 512 t : 512 t + 512]` of the result.
  By the stored block's value (the contraction over all 1024 input columns plus the bias entry) every written block
  is the matching block of ONE whole-array function `K`:
      K[b, n] = (∑ k, X[b, k] · S[k, n]) + B[0, n],
  and the eight column blocks cover the result array, so after the run the result array IS `K` of the three staged arrays.
-/
import proofs.«420647_j11055245820053_2_alg».proof.Proof.Gen.KernelIdeal.Value
import proofs.«420647_j11055245820053_2_alg».proof.Proof.KernelPayload
import Idealize.ShloMosaic.Lib.ValueIdx
import Idealize.ShloMosaic.Lib.Pipeline.Value

noncomputable section

open scoped BigOperators

namespace Cert.KernelBlocks

open Cert.KernelIdeal Cert.KernelIdeal.Gen Idealize.ShloMosaic Idealize.ShloMosaic.TcCoe Idealize.SL.Sem
open Idealize.ShloMosaic.ValueIdx
open Idealize.ShloMosaic.Pipeline (Dat)

/-- The result at batch row `b` and neuron `n`, from the three staged arrays. -/
def Kat (X : FVec Ideal S512x1024 .bf16) (S : FVec Ideal S1024x4096 .bf16) (Bv : FVec Ideal S1x4096 .f32)
    (b : Fin 512) (n : Fin 4096) : EReal :=
  (∑ k : Fin 1024, X (ix2 b k) * S (ix2 k n)) + Bv (ix2 (0 : Fin 1) n)

/-- The result array as one function of the three staged arrays. -/
def K (X : FVec Ideal S512x1024 .bf16) (S : FVec Ideal S1024x4096 .bf16) (Bv : FVec Ideal S1x4096 .f32) :
    FVec Ideal S512x4096 .f32 :=
  fun j => Kat X S Bv (j 0) (j 1)

/-- The stored block of the point with column-block number `tv`, at `(p, q)`: the whole-array function at row `p` and
    column `512 tv + q`, given that the three loaded blocks are the matching blocks of the three arrays. -/
theorem block_value_at (X : FVec Ideal S512x1024 .bf16) (S : FVec Ideal S1024x4096 .bf16) (Bv : FVec Ideal S1x4096 .f32)
    (x0 : FVec Ideal S512x1024 .bf16) (x1 : FVec Ideal S1024x512 .bf16) (x2 : FVec Ideal S1x512 .f32) (tv : ℕ) (htv : tv < 8)
    (h0 : ∀ (p : Fin 512) (k : Fin 1024), x0 (ix2 p k) = X (ix2 p k))
    (h1 : ∀ (k : Fin 1024) (q : Fin 512), x1 (ix2 k q) = S (ix2 k (⟨tv * 512 + q.val, by have := q.isLt; omega⟩ : Fin 4096)))
    (h2 : ∀ q : Fin 512, x2 (ix2 (0 : Fin 1) q) = Bv (ix2 (0 : Fin 1) (⟨tv * 512 + q.val, by have := q.isLt; omega⟩ : Fin 4096)))
    (p q : Fin 512) :
    k0_pay1 (F := Ideal) x0 x1 x2 (ix2 p q) = Kat X S Bv p ⟨tv * 512 + q.val, by have := q.isLt; omega⟩ := by
  rw [Cert.KernelPayload.pay_at]
  unfold Kat
  rw [h2]
  exact congrArg (· + _) (Finset.sum_congr rfl fun k _ => by rw [h0, h1])

/-- The same at any index `j` of the block. -/
theorem block_value (X : FVec Ideal S512x1024 .bf16) (S : FVec Ideal S1024x4096 .bf16) (Bv : FVec Ideal S1x4096 .f32)
    (x0 : FVec Ideal S512x1024 .bf16) (x1 : FVec Ideal S1024x512 .bf16) (x2 : FVec Ideal S1x512 .f32) (tv : ℕ) (htv : tv < 8)
    (h0 : ∀ (p : Fin 512) (k : Fin 1024), x0 (ix2 p k) = X (ix2 p k))
    (h1 : ∀ (k : Fin 1024) (q : Fin 512), x1 (ix2 k q) = S (ix2 k (⟨tv * 512 + q.val, by have := q.isLt; omega⟩ : Fin 4096)))
    (h2 : ∀ q : Fin 512, x2 (ix2 (0 : Fin 1) q) = Bv (ix2 (0 : Fin 1) (⟨tv * 512 + q.val, by have := q.isLt; omega⟩ : Fin 4096)))
    (j : S512x512.Idx) :
    k0_pay1 (F := Ideal) x0 x1 x2 j = Kat X S Bv (j 0) ⟨tv * 512 + (j 1).val, by have := idx2_lt1 j; omega⟩ := by
  obtain ⟨p, q, rfl⟩ : ∃ (p : Fin 512) (q : Fin 512), j = ix2 p q := ⟨j 0, j 1, eq_ix2 j⟩
  exact block_value_at X S Bv x0 x1 x2 tv htv h0 h1 h2 p q

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the `x` window stays at block `(0, 0)`; the weight-matrix, bias and result
    windows are at column block `t`. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

theorem t_lt (t : Fin cfg0.N) : t.val < 8 := lt_of_lt_of_eq t.isLt N_0

/-- The staged `x` block is the whole `x` array. -/
theorem iblk0_at (c : Dev nD) (t : Fin cfg0.N) (p : Fin 512) (k : Fin 1024) :
    iblk m c 0 t (ix2 p k) = V m c main_v20 (ix2 p k) := by
  obtain ⟨e0, e1, -⟩ := idx_facts t
  show V m c main_v20 (((cfg0.win 0).blk t).view.emb (ix2 p k)) = V m c main_v20 (ix2 p k)
  refine congrArg _ (funext fun a => Fin.ext ?_)
  match a with
  | ⟨0, _⟩ => show win0_0.index t (0 : Fin 2) * 512 + 1 * p.val = p.val; omega
  | ⟨1, _⟩ => show win0_0.index t (1 : Fin 2) * 1024 + 1 * k.val = k.val; omega

/-- The staged weight-matrix block is the column block `t` of the weight matrix. -/
theorem iblk1_at (c : Dev nD) (t : Fin cfg0.N) (k : Fin 1024) (q : Fin 512) :
    iblk m c 1 t (ix2 k q) = V m c main_v19 (ix2 k (⟨t.val * 512 + q.val, by have := q.isLt; have := t_lt t; omega⟩ : Fin 4096)) := by
  obtain ⟨-, -, e0, e1, -⟩ := idx_facts t
  show V m c main_v19 (((cfg0.win 1).blk t).view.emb (ix2 k q)) = V m c main_v19 _
  refine congrArg _ (funext fun a => Fin.ext ?_)
  match a with
  | ⟨0, _⟩ => show win0_1.index t (0 : Fin 2) * 1024 + 1 * k.val = k.val; omega
  | ⟨1, _⟩ => show win0_1.index t (1 : Fin 2) * 512 + 1 * q.val = t.val * 512 + q.val; omega

/-- The staged bias block is the column block `t` of the bias row. -/
theorem iblk2_at (c : Dev nD) (t : Fin cfg0.N) (q : Fin 512) :
    iblk m c 2 t (ix2 (0 : Fin 1) q)
      = V m c main_v21 (ix2 (0 : Fin 1) (⟨t.val * 512 + q.val, by have := q.isLt; have := t_lt t; omega⟩ : Fin 4096)) := by
  obtain ⟨-, -, -, -, e0, e1, -⟩ := idx_facts t
  show V m c main_v21 (((cfg0.win 2).blk t).view.emb (ix2 (0 : Fin 1) q)) = V m c main_v21 _
  refine congrArg _ (funext fun a => Fin.ext ?_)
  match a with
  | ⟨0, _⟩ => show win0_2.index t (0 : Fin 2) * 1 + 1 * 0 = 0; omega
  | ⟨1, _⟩ => show win0_2.index t (1 : Fin 2) * 512 + 1 * q.val = t.val * 512 + q.val; omega

/-- WHAT POINT `t` WRITES BACK is block `t` of `K` of the three staged arrays. -/
theorem flushed3_eq (c : Dev nD) (t : Fin cfg0.N) :
    (dats m 0 c).flushed 3 t
      = ((cfg0.win 3).blk t).view.read (Elt Ideal) (K (V m c main_v20) (V m c main_v19) (V m c main_v21)) := by
  rw [Cert.KernelIdeal.Value.flushed3]
  unfold out0_3
  rw [View.canon_unit_zero hz]
  simp only [View.ld_unit_zero (S := S512x1024) hz, View.ld_unit_zero (S := S1024x512) hz, View.ld_unit_zero (S := S1x512) hz]
  obtain ⟨-, -, -, -, -, -, e0, e1⟩ := idx_facts t
  funext j
  show k0_pay1 (F := Ideal) (iblk m c 0 t) (iblk m c 1 t) (iblk m c 2 t) j = K (V m c main_v20) (V m c main_v19) (V m c main_v21) (((cfg0.win 3).blk t).view.emb j)
  have hb := block_value (V m c main_v20) (V m c main_v19) (V m c main_v21) (iblk m c 0 t) (iblk m c 1 t) (iblk m c 2 t) t.val (t_lt t)
    (iblk0_at m c t) (iblk1_at m c t) (iblk2_at m c t) j
  refine hb.trans ?_
  have hj0 : (j 0).val < 512 := (j 0).isLt
  have hj1 : (j 1).val < 512 := (j 1).isLt
  have h0 : (j 0 : Fin 512) = (((cfg0.win 3).blk t).view.emb j) 0 := Fin.ext (by
    show (j 0).val = win0_3.index t (0 : Fin 2) * 512 + 1 * (j 0).val
    omega)
  have h1 : (⟨t.val * 512 + (j 1).val, by have := t_lt t; omega⟩ : Fin 4096) = (((cfg0.win 3).blk t).view.emb j) 1 := Fin.ext (by
    show t.val * 512 + (j 1).val = win0_3.index t (1 : Fin 2) * 512 + 1 * (j 1).val
    omega)
  exact congr (congrArg (Kat (V m c main_v20) (V m c main_v19) (V m c main_v21)) h0) h1

/-- An index of the result array is in point `t`'s block iff each coordinate is in the block's range on its axis. -/
theorem mem_blk3 (t : Fin cfg0.N) (i : S512x4096.Idx) :
    i ∈ ((cfg0.win 3).blk t).view.set
      ↔ ∀ a : Fin 2, win0_3.index t a * S512x512.size a ≤ (i a).val ∧ (i a).val < win0_3.index t a * S512x512.size a + S512x512.size a := by
  show i ∈ ((View.whole main_v22).slice (win0_3.rect t)).set ↔ _
  rw [View.set_slice_whole, Rect.mem_set_unit]
  exact Iff.rfl

/-- The eight column blocks cover the result array: index `(b, n)` lies in the block of point `n / 512`. -/
theorem cover3 (i : S512x4096.Idx) : ∃ t : Fin cfg0.N, (cfg0.win 3).flush t = true ∧ i ∈ ((cfg0.win 3).blk t).view.set := by
  have hi0 : (i 0).val < 512 := (i 0).isLt
  have hi1 : (i 1).val < 4096 := (i 1).isLt
  let t : Fin cfg0.N := ⟨(i 1).val / 512, by rw [show cfg0.N = 8 from N_0]; omega⟩
  obtain ⟨-, -, -, -, -, -, e0, e1⟩ := idx_facts t
  have e1' : win0_3.index t (1 : Fin 2) = (i 1).val / 512 := e1
  refine ⟨t, flush0_3 t, ?_⟩
  rw [mem_blk3]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 512 ≤ (i 1).val ∧ (i 1).val < win0_3.index t (1 : Fin 2) * 512 + 512; omega

/-- THE RESULT ARRAY after the run is `K` of the three staged arrays. -/
theorem final3 (c : Dev nD) :
    (dats m 0 c).arrAt 3 cfg0.N = K (V m c main_v20) (V m c main_v19) (V m c main_v21) :=
  (dats m 0 c).arrAt_eq_of_cover 3 (K (V m c main_v20) (V m c main_v19) (V m c main_v21)) (fun t _ => flushed3_eq m c t) cover3

end Cert.KernelBlocks

end
-- ==== Proof.KernelWords.lean ====
/-
  The scatter's index words, read signed: at position `(r, c)` the row word is the input column `idx[r, c]` names
  (when that lies in `[0, 1024)`: the clamp and the wrap of negative values then change nothing), and the column word is
  the neuron number `r`.
-/
import proofs.«420647_j11055245820053_2_alg».proof.Proof.KernelTerm
import Idealize.ShloMosaic.Lib.ValueIdx
import Idealize.ShloMosaic.Lib.ValueLayout
import Idealize.ShloMosaic.Lib.Pipeline.Value
import Idealize.ShloMosaic.Lib.StableHlo.Predicate

noncomputable section

namespace Cert.KernelWords

open Cert.KernelIdeal Cert.KernelIdeal.Gen Cert.KernelTerm Idealize.ShloMosaic Idealize.ShloMosaic.ValueIdx

/-- A `[4096, 64]` array given a trailing unit axis reads, at `(r, c, z)`, the array at `(r, c)`. -/
theorem bcast_unit {α : Type} (hb : S4096x64.BroadcastsInDim S4096x64x1 (![0, 1] : Fin 2 → Fin S4096x64x1.rank))
    (v : S4096x64.Idx → α) (r : Fin 4096) (c : Fin 64) (z : Fin 1) :
    broadcastInDim S4096x64x1 ![0, 1] hb v (ix3 r c z) = v (ix2 r c) := by
  simp only [broadcastInDim]
  congr 1
  funext a
  match a with
  | ⟨0, _⟩ =>
    apply Fin.ext
    split
    · next h1 => change 4096 = 1 at h1; omega
    · rfl
  | ⟨1, _⟩ =>
    apply Fin.ext
    split
    · next h1 => change 64 = 1 at h1; omega
    · rfl

/-- A word in `[0, 1024)` passes the clamp into `[0, 1023]` and the wrap of negative values unchanged. -/
theorem clip_word (v : BitVec 32) (h : 0 ≤ v.toInt ∧ v.toInt < 1024) :
    Scalar.select (IntOp.cmpi .slt (IntOp.minsi 1023#32 (IntOp.maxsi 0#32 v)) 0#32)
      (IntOp.addi (IntOp.minsi 1023#32 (IntOp.maxsi 0#32 v)) 1024#32) (IntOp.minsi 1023#32 (IntOp.maxsi 0#32 v)) = v := by
  have z0 : (0#32 : BitVec 32).toInt = 0 := by decide
  have z1 : (1023#32 : BitVec 32).toInt = 1023 := by decide
  have hmax : IntOp.maxsi 0#32 v = v := by
    unfold IntOp.maxsi
    rw [if_neg]
    rw [BitVec.slt_iff_toInt_lt, z0]; omega
  have hmin : IntOp.minsi 1023#32 v = v := by
    unfold IntOp.minsi
    rw [if_neg]
    rw [BitVec.slt_iff_toInt_lt, z1]; omega
  rw [hmax, hmin]
  have hc : IntOp.cmpi .slt v 0#32 = 0#1 := by
    apply eq_zero_of_ne_one
    rw [IntOp.cmpi_slt, z0]; omega
  rw [hc, select_zero]

/-- A small word is never negative: the wrap of negative values leaves it. -/
theorem wrap_small (v : BitVec 32) (k : BitVec 32) (h : 0 ≤ v.toInt) :
    Scalar.select (IntOp.cmpi .slt v 0#32) (IntOp.addi v k) v = v := by
  have z0 : (0#32 : BitVec 32).toInt = 0 := by decide
  have hc : IntOp.cmpi .slt v 0#32 = 0#1 := by
    apply eq_zero_of_ne_one
    rw [IntOp.cmpi_slt, z0]; omega
  rw [hc, select_zero]

/-- The neuron number at `(r, c)` is the word `r`: an iota along the first axis, constant along the second. -/
theorem neuron_word (r : Fin 4096) (c : Fin 64) : neuronIdx (ix2 r c) = BitVec.ofNat 32 r.val := by
  unfold neuronIdx
  exact (StableHlo.Predicate.bcast_rows _ _ _ r c).trans (StableHlo.Predicate.iota_apply r)

/-- The row word at `(r, c)` is the index word itself, for an index in `[0, 1024)`. -/
theorem rowWord (idx : IVec S4096x64 32) (r : Fin 4096) (c : Fin 64)
    (h : 0 ≤ (idx (ix2 r c)).toInt ∧ (idx (ix2 r c)).toInt < 1024) :
    (scatIdx idx (ix3 r c (0 : Fin 2))).toInt = (idx (ix2 r c)).toInt := by
  have e1 : scatIdx idx (ix3 r c (0 : Fin 2)) = rowWords idx (ix3 r c (0 : Fin 1)) :=
    concatenate_pair_apply_left (t := S4096x64x2) (s₁ := S4096x64x1) (s₂ := S4096x64x1) 2 (rowWords idx) colWords
      concatenates_S4096x64x1_S4096x64x1_S4096x64x2_d2 (ix3 r c (0 : Fin 2)) rfl (ix3 r c (0 : Fin 1)) (fun b => by
      match b with
      | ⟨0, _⟩ => rfl
      | ⟨1, _⟩ => rfl
      | ⟨2, _⟩ => rfl)
  rw [e1]
  unfold rowWords
  rw [bcast_unit]
  exact congrArg BitVec.toInt (clip_word (idx (ix2 r c)) h)

/-- The column word at `(r, c)` is the neuron number `r`. -/
theorem colWord (idx : IVec S4096x64 32) (r : Fin 4096) (c : Fin 64) :
    (scatIdx idx (ix3 r c (1 : Fin 2))).toInt = (r.val : Int) := by
  have e1 : scatIdx idx (ix3 r c (1 : Fin 2)) = colWords (ix3 r c (0 : Fin 1)) :=
    concatenate_pair_apply_right (t := S4096x64x2) (s₁ := S4096x64x1) (s₂ := S4096x64x1) 2 (rowWords idx) colWords
      concatenates_S4096x64x1_S4096x64x1_S4096x64x2_d2 (ix3 r c (1 : Fin 2)) rfl rfl (ix3 r c (0 : Fin 1)) (fun b hb => by
      match b with
      | ⟨0, _⟩ => rfl
      | ⟨1, _⟩ => rfl
      | ⟨2, _⟩ => exact absurd rfl hb) rfl
  rw [e1]
  unfold colWords
  rw [bcast_unit]
  have hn := neuron_word r c
  have hr : (BitVec.ofNat 32 r.val).toInt = (r.val : Int) :=
    StableHlo.Predicate.toInt_ofNat_small r.val (by have := r.isLt; omega)
  show (Scalar.select (IntOp.cmpi .slt (neuronIdx (ix2 r c)) 0#32) (IntOp.addi (neuronIdx (ix2 r c)) 4096#32)
    (neuronIdx (ix2 r c))).toInt = _
  rw [wrap_small _ _ (by rw [hn, hr]; omega), hn, hr]

end Cert.KernelWords

end
-- ==== Proof.LibScatterPoints.lean ====
/-
  An accumulating scatter of single entries into a table, each scatter position naming a row and a column, read at an
  index given by coordinates, over the extended reals.

  The operand is a table `[N, M]`, the scatter indices are `[R, C, 2]` (the last axis is the index vector: component 0
  names the row, component 1 the column), and the updates are `[R, C]`.  Both operand axes are inserted, so an update
  has no window coordinate: the update `(r, c)` lands at row `idx[r, c, 0]` and column `idx[r, c, 1]`, both read as
  signed integers and NOT clamped, and is dropped when that position is outside the table.  An operand entry therefore
  receives the sum of the update entries whose two index words name its row and its column.
-/
import Idealize.ShloMosaic.PureOps.Contract
import Idealize.ShloMosaic.PureOps.Ideal
import Idealize.ShloMosaic.Lib.ValueIdx

noncomputable section

open scoped BigOperators

namespace Cert.LibScatterPoints

open Idealize.ShloMosaic Idealize.ShloMosaic.ValueIdx

/-- The dimension numbers of a scatter of single entries into a table: operand `[N, M]`, scatter indices `[R, C, 2]`,
    updates `[R, C]`; no window axis, both operand axes inserted and named by the index vector, which is the scatter
    indices' axis 2. -/
abbrev pointsDims (N M R C : Nat)
    (wf : ScatterDims.WF ⟨2, ![N, M]⟩ ⟨3, ![R, C, 2]⟩ ⟨2, ![R, C]⟩ [] [0, 1] [0, 1] 2) :
    ScatterDims ⟨2, ![N, M]⟩ ⟨3, ![R, C, 2]⟩ ⟨2, ![R, C]⟩ where
  updateWindowDims := []
  insertedWindowDims := [0, 1]
  scatterDimsToOperandDims := [0, 1]
  indexVectorDim := 2
  wf := wf

section Points
variable {N M R C w : Nat} (wf : ScatterDims.WF ⟨2, ![N, M]⟩ ⟨3, ![R, C, 2]⟩ ⟨2, ![R, C]⟩ [] [0, 1] [0, 1] 2)
  (idx : IVec ⟨3, ![R, C, 2]⟩ w)

/-- An operand axis is among the window axes' targets exactly when it is not an inserted axis. -/
theorem mem_sKept {s si u : Shape} (d : ScatterDims s si u) (a : Fin s.rank) :
    a ∈ d.sKept ↔ a ∉ d.insertedWindowDims := by
  simp [ScatterDims.sKept, Shape.kept, List.mem_filter, List.mem_finRange]

/-- Operand axis 0 is named by the index vector (its component 0). -/
theorem mem_sdto0 : (0 : Fin 2) ∈ (pointsDims N M R C wf).scatterDimsToOperandDims :=
  List.mem_cons_self ..

/-- Operand axis 1 is named by the index vector (its component 1). -/
theorem mem_sdto1 : (1 : Fin 2) ∈ (pointsDims N M R C wf).scatterDimsToOperandDims :=
  List.mem_cons_of_mem _ (List.mem_singleton.mpr rfl)

/-- On the row axis an update's start is component 0 of its index vector, read signed. -/
theorem points_start0 (r : Fin R) (c : Fin C) :
    (pointsDims N M R C wf).start (ix2 r c) idx 0 = (idx (ix3 r c (0 : Fin 2))).toInt := by
  unfold ScatterDims.start
  rw [dif_pos (mem_sdto0 wf)]
  have hsi : (pointsDims N M R C wf).siIdx (ix2 r c) ⟨List.idxOf (0 : Fin 2) (pointsDims N M R C wf).scatterDimsToOperandDims,
      List.idxOf_lt_length_iff.2 (mem_sdto0 wf)⟩ = ix3 r c (0 : Fin 2) := by
    funext b; refine Fin.ext ?_
    match b with
    | ⟨0, _⟩ => rfl
    | ⟨1, _⟩ => rfl
    | ⟨2, _⟩ => rfl
  rw [hsi]

/-- On the column axis an update's start is component 1 of its index vector, read signed. -/
theorem points_start1 (r : Fin R) (c : Fin C) :
    (pointsDims N M R C wf).start (ix2 r c) idx 1 = (idx (ix3 r c (1 : Fin 2))).toInt := by
  unfold ScatterDims.start
  rw [dif_pos (mem_sdto1 wf)]
  have hsi : (pointsDims N M R C wf).siIdx (ix2 r c) ⟨List.idxOf (1 : Fin 2) (pointsDims N M R C wf).scatterDimsToOperandDims,
      List.idxOf_lt_length_iff.2 (mem_sdto1 wf)⟩ = ix3 r c (1 : Fin 2) := by
    funext b; refine Fin.ext ?_
    match b with
    | ⟨0, _⟩ => rfl
    | ⟨1, _⟩ => rfl
    | ⟨2, _⟩ => rfl
  rw [hsi]

/-- Both operand axes are inserted: no window coordinate on the row axis. -/
theorem points_window0 (r : Fin R) (c : Fin C) : (pointsDims N M R C wf).window (ix2 r c) 0 = 0 := by
  unfold ScatterDims.window
  rw [dif_neg (show (0 : Fin 2) ∉ (pointsDims N M R C wf).sKept from
    fun h => (mem_sKept _ _).mp h (List.mem_cons_self ..))]

/-- Both operand axes are inserted: no window coordinate on the column axis. -/
theorem points_window1 (r : Fin R) (c : Fin C) : (pointsDims N M R C wf).window (ix2 r c) 1 = 0 := by
  unfold ScatterDims.window
  rw [dif_neg (show (1 : Fin 2) ∉ (pointsDims N M R C wf).sKept from
    fun h => (mem_sKept _ _).mp h (List.mem_cons_of_mem _ (List.mem_singleton.mpr rfl)))]

/-- Where the update `(r, c)` lands: at `(i, n)` exactly when its two index words, read signed, are `i` and `n`. -/
theorem points_lands_iff (r : Fin R) (c : Fin C) (i : Fin N) (n : Fin M) :
    (pointsDims N M R C wf).resultIdx? (ix2 r c) idx = some (ix2 i n)
      ↔ (idx (ix3 r c (0 : Fin 2))).toInt = (i.val : Int) ∧ (idx (ix3 r c (1 : Fin 2))).toInt = (n.val : Int) := by
  unfold ScatterDims.resultIdx?
  constructor
  · intro h
    split at h
    · have hf := Option.some.inj h
      have h0 : ((pointsDims N M R C wf).start (ix2 r c) idx 0 + ((pointsDims N M R C wf).window (ix2 r c) 0 : Int)).toNat = i.val :=
        congrArg (fun f : (⟨2, ![N, M]⟩ : Shape).Idx => (f 0).val) hf
      have h1 : ((pointsDims N M R C wf).start (ix2 r c) idx 1 + ((pointsDims N M R C wf).window (ix2 r c) 1 : Int)).toNat = n.val :=
        congrArg (fun f : (⟨2, ![N, M]⟩ : Shape).Idx => (f 1).val) hf
      rename_i hall
      have hb0 := (hall 0).1
      have hb1 := (hall 1).1
      rw [points_start0, points_window0] at h0 hb0
      rw [points_start1, points_window1] at h1 hb1
      refine ⟨by omega, by omega⟩
    · exact absurd h (by simp)
  · rintro ⟨hi, hn⟩
    have hall : ∀ a : Fin 2, 0 ≤ (pointsDims N M R C wf).start (ix2 r c) idx a + ((pointsDims N M R C wf).window (ix2 r c) a : Int)
        ∧ (pointsDims N M R C wf).start (ix2 r c) idx a + ((pointsDims N M R C wf).window (ix2 r c) a : Int)
          < ((⟨2, ![N, M]⟩ : Shape).size a : Int) := by
      intro a
      match a with
      | ⟨0, _⟩ =>
        show 0 ≤ (pointsDims N M R C wf).start (ix2 r c) idx 0 + ((pointsDims N M R C wf).window (ix2 r c) 0 : Int)
          ∧ (pointsDims N M R C wf).start (ix2 r c) idx 0 + ((pointsDims N M R C wf).window (ix2 r c) 0 : Int) < (N : Int)
        rw [points_start0, points_window0, hi]
        have := i.isLt
        omega
      | ⟨1, _⟩ =>
        show 0 ≤ (pointsDims N M R C wf).start (ix2 r c) idx 1 + ((pointsDims N M R C wf).window (ix2 r c) 1 : Int)
          ∧ (pointsDims N M R C wf).start (ix2 r c) idx 1 + ((pointsDims N M R C wf).window (ix2 r c) 1 : Int) < (M : Int)
        rw [points_start1, points_window1, hn]
        have := n.isLt
        omega
    rw [dif_pos hall]
    refine congrArg some (funext fun a => Fin.ext ?_)
    match a with
    | ⟨0, _⟩ =>
      show ((pointsDims N M R C wf).start (ix2 r c) idx 0 + ((pointsDims N M R C wf).window (ix2 r c) 0 : Int)).toNat = i.val
      rw [points_start0, points_window0, hi]
      omega
    | ⟨1, _⟩ =>
      show ((pointsDims N M R C wf).start (ix2 r c) idx 1 + ((pointsDims N M R C wf).window (ix2 r c) 1 : Int)).toNat = n.val
      rw [points_start1, points_window1, hn]
      omega

end Points

/-- THE HOST'S ACCUMULATING SCATTER OF SINGLE ENTRIES READ AT `(i, n)`: the operand entry plus the sum, over the scatter
    positions `(r, c)` whose two index words name row `i` and column `n`, of the update entries. -/
theorem hostScatterAdd_points_apply {N M R C w : Nat}
    (wf : ScatterDims.WF ⟨2, ![N, M]⟩ ⟨3, ![R, C, 2]⟩ ⟨2, ![R, C]⟩ [] [0, 1] [0, 1] 2)
    (d : ScatterDims ⟨2, ![N, M]⟩ ⟨3, ![R, C, 2]⟩ ⟨2, ![R, C]⟩) (hd : d = pointsDims N M R C wf)
    (x : FVec Ideal ⟨2, ![N, M]⟩ .f32) (idx : IVec ⟨3, ![R, C, 2]⟩ w) (upd : FVec Ideal ⟨2, ![R, C]⟩ .f32)
    (i : Fin N) (n : Fin M) :
    Host.scatterAdd (F := Ideal) d x idx upd (ix2 i n)
      = x (ix2 i n) + ∑ r : Fin R, ∑ c : Fin C,
          if (idx (ix3 r c (0 : Fin 2))).toInt = (i.val : Int) ∧ (idx (ix3 r c (1 : Fin 2))).toInt = (n.val : Int)
          then upd (ix2 r c) else 0 := by
  subst hd
  unfold Host.scatterAdd
  rw [Ideal.hostScatterAdd_def]
  unfold Ideal.hostScatterAdd
  refine congrArg (x (ix2 i n) + ·) ?_
  rw [Finset.sum_filter, sum_idx2]
  refine Finset.sum_congr rfl fun r _ => Finset.sum_congr rfl fun c _ => ?_
  exact if_congr (points_lands_iff wf idx r c i n) rfl rfl

end Cert.LibScatterPoints

end
-- ==== Proof.KernelMat.lean ====
/-
  The scattered weight matrix read at an index: entry `(i, n)` is zero plus the sum of the weights `w[r, c]` over the
  positions `(r, c)` whose input column is `i` and whose neuron is `n` (for indices in `[0, 1024)`, where the scatter's
  row word is the index word itself).
-/
import proofs.«420647_j11055245820053_2_alg».proof.Proof.KernelTerm
import proofs.«420647_j11055245820053_2_alg».proof.Proof.KernelWords
import proofs.«420647_j11055245820053_2_alg».proof.Proof.LibScatterPoints
import proofs.«420647_j11055245820053_2_alg».proof.Proof.Spec
import Idealize.ShloMosaic.PureOps.Ideal.Laws
import Idealize.ShloMosaic.Lib.ValueIdx

noncomputable section

open scoped BigOperators

namespace Cert.KernelMat

open Cert.KernelIdeal Cert.KernelIdeal.Gen Cert.KernelTerm Idealize.ShloMosaic Idealize.ShloMosaic.ValueIdx

/-- THE WEIGHT MATRIX AT `(i, n)`: the weights of the positions `(r, c)` with column `i` and neuron `n`, summed from zero. -/
theorem weightMat_apply (idx : IVec S4096x64 32) (w : FVec Ideal S4096x64 .f32)
    (hidx : ∀ j, 0 ≤ (idx j).toInt ∧ (idx j).toInt < 1024) (i : Fin 1024) (n : Fin 4096) :
    weightMat (F := Ideal) idx w (ix2 i n)
      = 0 + ∑ r : Fin 4096, ∑ c : Fin 64, if Cert.Spec.col idx r c = i ∧ r = n then w (ix2 r c) else 0 := by
  unfold weightMat
  rw [Cert.LibScatterPoints.hostScatterAdd_points_apply scatter_S1024x4096_S4096x64x2_S4096x64_n_01_01_2_wf
    scatter_S1024x4096_S4096x64x2_S4096x64_n_01_01_2 rfl]
  have hz : (broadcastInDim S1024x4096 ![] bcast_S_S1024x4096 (constant (F := Ideal) S_ .f32 0x00000000#32)) (ix2 i n) = 0 :=
    Ideal.ofBits_zero_f32
  rw [hz]
  refine congrArg (0 + ·) (Finset.sum_congr rfl fun r _ => Finset.sum_congr rfl fun c _ => ?_)
  refine if_congr ?_ rfl rfl
  rw [Cert.KernelWords.rowWord idx r c (hidx (ix2 r c)), Cert.KernelWords.colWord idx r c,
    ← Cert.Spec.col_val idx r c (hidx (ix2 r c))]
  constructor
  · rintro ⟨h1, h2⟩
    exact ⟨Fin.ext (by exact_mod_cast h1), Fin.ext (by exact_mod_cast h2)⟩
  · rintro ⟨h1, h2⟩
    subst h1 h2
    exact ⟨rfl, rfl⟩

end Cert.KernelMat

end
-- ==== Proof.KernelValue.lean ====
/-
  The kernel's result array is the common value.

  The launch leaves `K[b, n] = (∑ k, X[b, k] · S[k, n]) + B[0, n]` over the three arrays it stages: `X` is `x` (narrowing to
  bf16 is the identity on extended reals), `S` the scattered weight matrix, `B` the bias as a row.  With the weight
  matrix read at an index, the contraction over all 1024 input columns collapses, by the law of `Spec`, to the sum over
  the 64 positions of neuron `n`: the common value `G`.  The law needs `x` and the weights to be reals and the index
  words to name columns, which the precondition gives.
-/
import proofs.«420647_j11055245820053_2_alg».proof.Proof.KernelBlocks
import proofs.«420647_j11055245820053_2_alg».proof.Proof.KernelMat
import proofs.«420647_j11055245820053_2_alg».proof.Proof.Spec
import Idealize.ShloMosaic.Lib.ValueIdx
import Idealize.ShloMosaic.Lib.ValueLayout

noncomputable section

open scoped BigOperators

namespace Cert.KernelValue

open Cert.KernelIdeal Cert.KernelIdeal.Gen Cert.KernelTerm Idealize.ShloMosaic Idealize.ShloMosaic.ValueIdx

/-- `K` of the staged arrays is `G` of the arguments, for real `x` and weights and indices in `[0, 1024)`. -/
theorem K_eq_G (x : FVec Ideal S512x1024 .f32) (idx : IVec S4096x64 32) (w : FVec Ideal S4096x64 .f32)
    (bias : FVec Ideal S4096 .f32)
    (hx : ∀ i, ∃ r : ℝ, x i = (r : EReal)) (hw : ∀ j, ∃ r : ℝ, w j = (r : EReal))
    (hidx : ∀ j, 0 ≤ (idx j).toInt ∧ (idx j).toInt < 1024) :
    Cert.KernelBlocks.K (truncf .bf16 x bitsLt_bf16_f32) (truncf .bf16 (weightMat (F := Ideal) idx w) bitsLt_bf16_f32)
        (shapeCast S1x4096 bias shapeCasts_S4096_S1x4096)
      = Cert.Spec.G x idx w bias := by
  funext j
  obtain ⟨b, n, rfl⟩ : ∃ (b : Fin 512) (n : Fin 4096), j = ix2 b n := ⟨j 0, j 1, eq_ix2 j⟩
  show Cert.KernelBlocks.Kat _ _ _ b n = Cert.Spec.Gat x idx w bias b n
  unfold Cert.KernelBlocks.Kat Cert.Spec.Gat
  rw [shapeCast_a_1a_apply]
  refine congrArg (· + _) ?_
  simp only [truncf_apply]
  rw [Finset.sum_congr rfl (fun k _ => by rw [Cert.KernelMat.weightMat_apply idx w hidx k n])]
  exact Cert.Spec.contract_scatter (fun k => x (ix2 b k)) (fun r c => w (ix2 r c)) (Cert.Spec.col idx) n
    (fun k => hx _) (fun r c => hw _)

end Cert.KernelValue

end
-- ==== Proof.lean ====
/-
  The kernel and its reference compute the same array.

  For a batch row `b` and a neuron `n` both programs return
      y[b, n] = (∑ f, x[b, idx[n, f]] · w[n, f]) + bias[n].
  The reference gathers the 64 input columns a neuron reads and sums the 64 products.  The kernel scatters the
  weights into a dense `[1024, 4096]` matrix on the host and multiplies `x` with it, one block of 512 neurons per
  grid point, adding the bias.  Under the precondition — `x` and the weights finite, every index in `[0, 1024)` — the
  index handling of both sides (the clamp on one, the wrap-around and range test on the other) is the identity, and the
  contraction with the scattered matrix collapses to the gathered sum because multiplication distributes over a finite
  sum of real numbers (`Spec.contract_scatter`).

  The modules: `Spec` (the common value and the law), `PreRead` (the precondition entry by entry); for the reference
  `RefTerm`, `RefRun` (its run), `LibGatherCols3`, `RefTaken`, `RefValue` (its result is the common value); for the kernel
  `KernelTerm`, `KernelHost` (what the host writes before the launch), `KernelWords`, `LibScatterPoints`, `KernelMat`
  (the scattered matrix at an index), `KernelPayload`, `KernelBlocks` (the launch's result array from its blocks),
  `KernelValue` (it is the common value).  The three frames are the generated ones (the reference's is its run with the
  result dropped); nothing was rewritten in the kernel's idealization, so it is trivially sanctioned.
-/
import proofs.«420647_j11055245820053_2_alg».proof.Defs
import proofs.«420647_j11055245820053_2_alg».proof.Proof.Gen.Kernel
import proofs.«420647_j11055245820053_2_alg».proof.Proof.Gen.Kernel.Skeleton
import proofs.«420647_j11055245820053_2_alg».proof.Proof.Gen.Kernel.Launch
import proofs.«420647_j11055245820053_2_alg».proof.Proof.Gen.Kernel.Points
import proofs.«420647_j11055245820053_2_alg».proof.Proof.Gen.Kernel.Frame
import proofs.«420647_j11055245820053_2_alg».proof.Proof.Gen.KernelIdeal
import proofs.«420647_j11055245820053_2_alg».proof.Proof.Gen.KernelIdeal.Skeleton
import proofs.«420647_j11055245820053_2_alg».proof.Proof.Gen.KernelIdeal.Launch
import proofs.«420647_j11055245820053_2_alg».proof.Proof.Gen.KernelIdeal.Points
import proofs.«420647_j11055245820053_2_alg».proof.Proof.Gen.KernelIdeal.Frame
import proofs.«420647_j11055245820053_2_alg».proof.Proof.Gen.KernelIdeal.Value
import proofs.«420647_j11055245820053_2_alg».proof.Proof.Gen.ReferenceIdeal
import proofs.«420647_j11055245820053_2_alg».proof.Proof.Gen.Pre_finite_inputs
import proofs.«420647_j11055245820053_2_alg».proof.Proof.Spec
import proofs.«420647_j11055245820053_2_alg».proof.Proof.PreRead
import proofs.«420647_j11055245820053_2_alg».proof.Proof.RefRun
import proofs.«420647_j11055245820053_2_alg».proof.Proof.RefValue
import proofs.«420647_j11055245820053_2_alg».proof.Proof.KernelHost
import proofs.«420647_j11055245820053_2_alg».proof.Proof.KernelBlocks
import proofs.«420647_j11055245820053_2_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.RefRun.run (F := Ideal) m ρ)

/-- Both runs end with the common value `Spec.G` of the (agreeing) argument arrays: the kernel's result array is `K` of
    what the host staged, which is `G`; the reference's composed term is `G`. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩)
      (Cert.KernelIdeal.Value.run_blocks (F := Ideal) m ρ)
    obtain ⟨hx, hw, hidx⟩ := Cert.PreRead.pre_read _ _ _ _ (hpre c)
    rw [Cert.KernelBlocks.final3 m c, Cert.KernelHost.V_v19 (F := Ideal) m c, Cert.KernelHost.V_v20 (F := Ideal) m c,
      Cert.KernelHost.V_v21 (F := Ideal) m c]
    exact Cert.KernelValue.K_eq_G _ _ _ _ hx hw hidx
  · refine (θ_run Cert.ReferenceIdeal.defs _ _).mono (fun r h c => ⟨(h c).1.trans ?_, (h c).2⟩)
      (Cert.RefRun.run (F := Ideal) m' ρ')
    obtain ⟨hx, hw, hidx⟩ := Cert.PreRead.pre_read _ _ _ _ (hpre c)
    rw [(hagree c).1, (hagree c).2.1, (hagree c).2.2.1, (hagree c).2.2.2]
    exact Cert.RefValue.refOut_eq _ _ _ _ hidx

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
